-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S1024 : Shape := ⟨1, ![1024]⟩
abbrev S128x32 : Shape := ⟨2, ![128, 32]⟩
abbrev S32x64 : Shape := ⟨2, ![32, 64]⟩
abbrev S64x64 : Shape := ⟨2, ![64, 64]⟩
abbrev S64x104 : Shape := ⟨2, ![64, 104]⟩
abbrev S104 : Shape := ⟨1, ![104]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000 : S_.BroadcastsInDim S100000 (![] : Fin 0 → Fin S100000.rank)
  reducesTo_S100000_S_d0 : S100000.ReducesTo [0] S_
  bcast_S_S128x32 : S_.BroadcastsInDim S128x32 (![] : Fin 0 → Fin S128x32.rank)
  reducesTo_S128x32_S_d0_1 : S128x32.ReducesTo [0, 1] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x104 : S_.BroadcastsInDim S64x104 (![] : Fin 0 → Fin S64x104.rank)
  reducesTo_S64x104_S_d0_1 : S64x104.ReducesTo [0, 1] S_
  bcast_S_S104 : S_.BroadcastsInDim S104 (![] : Fin 0 → Fin S104.rank)
  reducesTo_S104_S_d0 : S104.ReducesTo [0] S_

variable [Facts]

def fn_part2 {F : FTy → Type} [FloatOps F] (main_arg11 : FVec F S104 .f32) (main_v33 : IVec S_ 1) : IVec S_ 1 :=
  let main_v34 : FVec F S104 .f32 := Host.absf main_arg11
  let main_cst_12 : FVec F S_ .f32 := constant S_ .f32 0x7F800000#32
  let main_v35 : FVec F S104 .f32 := broadcastInDim S104 ![] bcast_S_S104 main_cst_12
  let main_v36 : IVec S104 1 := cmpf .olt main_v34 main_v35
  let main_c_13 : IVec S_ 1 := constantI S_ 1 1#1
  let main_v37 : IVec S_ 1 := (fun x v => Host.reduce IntOp.andi x v reducesTo_S104_S_d0 h_S_) main_v36 main_c_13
  let main_v38 : IVec S_ 1 := andi main_v33 main_v37
  main_v38

def fn_part1 {F : FTy → Type} [FloatOps F] (main_arg8 : FVec F S32x64 .f32) (main_arg9 : FVec F S64x64 .f32) (main_arg10 : FVec F S64x104 .f32) (main_arg11 : FVec F S104 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x64 .f32 := Host.absf main_arg8
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x104 .f32 := Host.absf main_arg10
  let main_cst_10 : FVec F S_ .f32 := constant S_ .f32 0x7F800000#32
  let main_v30 : FVec F S64x104 .f32 := broadcastInDim S64x104 ![] bcast_S_S64x104 main_cst_10
  let main_v31 : IVec S64x104 1 := cmpf .olt main_v29 main_v30
  let main_c_11 : IVec S_ 1 := constantI S_ 1 1#1
  let main_v32 : IVec S_ 1 := (fun x v => Host.reduce IntOp.andi x v reducesTo_S64x104_S_d0_1 h_S_) main_v31 main_c_11
  let main_v33 : IVec S_ 1 := andi main_v28 main_v32
  fn_part2 (F := F) main_arg11 main_v33

def fn {F : FTy → Type} [FloatOps F] (main_arg0 : FVec F S100000x128 .f32) (main_arg1 : IVec S1600000 32) (main_arg2 : IVec S1600000 32) (main_arg3 : FVec F S1600000 .f32) (main_arg4 : IVec S100000 32) (main_arg5 : FVec F S100000 .f32) (main_arg6 : IVec S1024 32) (main_arg7 : FVec F S128x32 .f32) (main_arg8 : FVec F S32x64 .f32) (main_arg9 : FVec F S64x64 .f32) (main_arg10 : FVec F S64x104 .f32) (main_arg11 : FVec F S104 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000 .f32 := Host.absf main_arg5
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S128x32 .f32 := Host.absf main_arg7
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg8 main_arg9 main_arg10 main_arg11 main_v13 main_v16
-- ==== Kernel.lean ====
abbrev S100000x128 : Shape := ⟨2, ![100000, 128]⟩
abbrev S1600000 : Shape := ⟨1, ![1600000]⟩
abbrev S100000 : Shape := ⟨1, ![100000]⟩
abbrev S1024 : Shape := ⟨1, ![1024]⟩
abbrev S128x32 : Shape := ⟨2, ![128, 32]⟩
abbrev S32x64 : Shape := ⟨2, ![32, 64]⟩
abbrev S64x64 : Shape := ⟨2, ![64, 64]⟩
abbrev S64x104 : Shape := ⟨2, ![64, 104]⟩
abbrev S104 : Shape := ⟨1, ![104]⟩
abbrev S100000x32 : Shape := ⟨2, ![100000, 32]⟩
abbrev S5000x128 : Shape := ⟨2, ![5000, 128]⟩
abbrev S5000x32 : Shape := ⟨2, ![5000, 32]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S5000x64 : Shape := ⟨2, ![5000, 64]⟩
abbrev S1600000x64 : Shape := ⟨2, ![1600000, 64]⟩
abbrev S100000x1 : Shape := ⟨2, ![100000, 1]⟩
abbrev S1024x64 : Shape := ⟨2, ![1024, 64]⟩
abbrev S1000x1 : Shape := ⟨2, ![1000, 1]⟩
abbrev S1000x64 : Shape := ⟨2, ![1000, 64]⟩
abbrev S1000x1024 : Shape := ⟨2, ![1000, 1024]⟩
abbrev S1024x1 : Shape := ⟨2, ![1024, 1]⟩
abbrev S1x104 : Shape := ⟨2, ![1, 104]⟩
abbrev S1024x104 : Shape := ⟨2, ![1024, 104]⟩
abbrev S1x1 : Shape := ⟨2, ![1, 1]⟩
abbrev S1 : Shape := ⟨1, ![1]⟩

abbrev nBuf : Space → Nat
  | .hbm => 77
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .i32⟩
  | .hbm, ⟨5, _⟩ => ⟨S100000, .f32⟩
  | .hbm, ⟨6, _⟩ => ⟨S1024, .i32⟩
  | .hbm, ⟨7, _⟩ => ⟨S128x32, .f32⟩
  | .hbm, ⟨8, _⟩ => ⟨S32x64, .f32⟩
  | .hbm, ⟨9, _⟩ => ⟨S64x64, .f32⟩
  | .hbm, ⟨10, _⟩ => ⟨S64x104, .f32⟩
  | .hbm, ⟨11, _⟩ => ⟨S104, .f32⟩
  | .hbm, ⟨12, _⟩ => ⟨S100000x32, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S1600000x1, .f32⟩
  | .hbm, ⟨23, _⟩ => ⟨S1600000x32, .f32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x1, .i32⟩
  | .hbm, ⟨64, _⟩ => ⟨S100000x1, .f32⟩
  | .hbm, ⟨65, _⟩ => ⟨S1024x64, .f32⟩
  | .hbm, ⟨66, _⟩ => ⟨S1024x1, .i32⟩
  | .hbm, ⟨67, _⟩ => ⟨S1x104, .f32⟩
  | .hbm, ⟨68, _⟩ => ⟨S1024x104, .f32⟩
  | .hbm, ⟨69, _⟩ => ⟨S1x1, .f32⟩
  | .hbm, ⟨70, _⟩ => ⟨S128x32, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S1000x1, .i32⟩
  | .local _ .vmem, ⟨16, _⟩ => ⟨S1000x1, .i32⟩
  | .local _ .vmem, ⟨17, _⟩ => ⟨S1000x1, .f32⟩
  | .local _ .vmem, ⟨18, _⟩ => ⟨S1000x1, .f32⟩
  | .local _ .vmem, ⟨19, _⟩ => ⟨S1000x64, .f32⟩
  | .local _ .vmem, ⟨20, _⟩ => ⟨S1000x64, .f32⟩
  | .local _ .vmem, ⟨21, _⟩ => ⟨S1024x64, .f32⟩
  | .local _ .vmem, ⟨22, _⟩ => ⟨S1024x64, .f32⟩
  | .local _ .vmem, ⟨23, _⟩ => ⟨S64x104, .f32⟩
  | .local _ .vmem, ⟨24, _⟩ => ⟨S1x104, .f32⟩
  | .local _ .vmem, ⟨25, _⟩ => ⟨S1024x1, .i32⟩
  | .local _ .vmem, ⟨26, _⟩ => ⟨S1024x104, .f32⟩
  | .local _ .vmem, ⟨27, _⟩ => ⟨S1x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg4_0 : Ref sig .tc := ⟨.vmem, 26, rfl⟩
abbrev cc4_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc4_sem0_0 : DmaSem sig := 22
abbrev cc4_sem1_0 : DmaSem sig := 23
abbrev cc4_sem2_0 : DmaSem sig := 24
abbrev cc4_sem3_0 : DmaSem sig := 25
abbrev cc4_sem4_0 : DmaSem sig := 26
abbrev cc4_sem5_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x104 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x104 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1024x1 .i32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1024x104 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S1024x64_S1024x64_0_0 : ∀ a, (![0, 0] : Fin 2 → Nat) a + S1024x64.size a ≤ S1024x64.size a
  h_S1024x64 : 0 < S1024x64.numel
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  iota_S1000x1024_d1_w32 : S1000x1024.Iotas .tc 32 [1]
  broadcasts_S1000x1_S1000x1024 : S1000x1.Broadcasts S1000x1024
  natLt_1_32 : 1 < 32
  shapeCasts_S1024x64_S1024x64 : S1024x64.ShapeCasts S1024x64
  shapeCasts_S1024_S1024x1 : S1024.ShapeCasts S1024x1
  shapeCasts_S104_S1x104 : S104.ShapeCasts S1x104
  inb_S64x104_S64x104_0_0 : ∀ a, (![0, 0] : Fin 2 → Nat) a + S64x104.size a ≤ S64x104.size a
  h_S64x104 : 0 < S64x104.numel
  inb_S1x104_S1x104_0_0 : ∀ a, (![0, 0] : Fin 2 → Nat) a + S1x104.size a ≤ S1x104.size a
  h_S1x104 : 0 < S1x104.numel
  shapeCasts_S1x104_S1x104 : S1x104.ShapeCasts S1x104
  broadcasts_S1x104_S1024x104 : S1x104.Broadcasts S1024x104
  inb_S1024x104_S1024x104_0_0 : ∀ a, (![0, 0] : Fin 2 → Nat) a + S1024x104.size a ≤ S1024x104.size a
  h_S1024x104 : 0 < S1024x104.numel
  reduces_S1024x104_S1024 : S1024x104.Reduces [1] S1024
  broadcasts_S1024x1_S1024x104 : S1024x1.Broadcasts S1024x104
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x104_d1_w32 : S1024x104.Iotas .tc 32 [1]
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  reducesTo_S128x32_S_d0_1 : S128x32.ReducesTo [0, 1] S_
  h_S_ : 0 < S_.numel
  shapeCasts_S1x1_S_ : S1x1.ShapeCasts S_
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S1000x1024_S1000x64_S1024x64_0_0_1_1_n_n_wf : DotDims.WF S1000x1024 S1000x64 S1024x64 [0] [0] [1] [1] [] []
  dot_S1024x64_S64x104_S1024x104_1_0_0_1_n_n_wf : DotDims.WF S1024x64 S64x104 S1024x104 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1.size a ≤ S100000x1.size a
  hwx3_0 : ∀ i : grid3.Coords, EltTy.bits .i32 = 32 ∨ (Rect.block (s := S100000x1) S1000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S100000x1.size a
  hwx3_1 : ∀ i : grid3.Coords, EltTy.bits .f32 = 32 ∨ (Rect.block (s := S100000x1) S1000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x64.size a ≤ S100000x64.size a
  hwx3_2 : ∀ i : grid3.Coords, EltTy.bits .f32 = 32 ∨ (Rect.block (s := S100000x64) S1000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x64.size a ≤ S1024x64.size a
  hwx3_3 : ∀ i : grid3.Coords, EltTy.bits .f32 = 32 ∨ (Rect.block (s := S1024x64) S1024x64.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S1024x64.size a
  hwx4_0 : ∀ i : grid4.Coords, EltTy.bits .f32 = 32 ∨ (Rect.block (s := S1024x64) S1024x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x104.size a ≤ S64x104.size a
  hwx4_1 : ∀ i : grid4.Coords, EltTy.bits .f32 = 32 ∨ (Rect.block (s := S64x104) S64x104.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x104.size a ≤ S1x104.size a
  hwx4_2 : ∀ i : grid4.Coords, EltTy.bits .f32 = 32 ∨ (Rect.block (s := S1x104) S1x104.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x1.size a ≤ S1024x1.size a
  hwx4_3 : ∀ i : grid4.Coords, EltTy.bits .i32 = 32 ∨ (Rect.block (s := S1024x1) S1024x1.size (cc4_transform_3 i) (hinb4_3 i)).WholeWords (EltTy.packing .i32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1024x104.size a ≤ S1024x104.size a
  hwx4_4 : ∀ i : grid4.Coords, EltTy.bits .f32 = 32 ∨ (Rect.block (s := S1024x104) S1024x104.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1000x1024_S1000x64_S1024x64_0_0_1_1_n_n : DotDims S1000x1024 S1000x64 S1024x64 where
  lhsContracting := [0]
  rhsContracting := [0]
  lhsNonContracting := [1]
  rhsNonContracting := [1]
  lhsBatch := []
  rhsBatch := []
  wf := dot_S1000x1024_S1000x64_S1024x64_0_0_1_1_n_n_wf
def dot_S1024x64_S64x104_S1024x104_1_0_0_1_n_n : DotDims S1024x64 S64x104 S1024x104 where
  lhsContracting := [1]
  rhsContracting := [0]
  lhsNonContracting := [0]
  rhsNonContracting := [1]
  lhsBatch := []
  rhsBatch := []
  wf := dot_S1024x64_S64x104_S1024x104_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S1000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1024x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v44) S1024x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x104.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x104.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v45) S1024x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47_0) S1024x104.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v47_1) S1x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S1024 : Shape := ⟨1, ![1024]⟩
abbrev S128x32 : Shape := ⟨2, ![128, 32]⟩
abbrev S32x64 : Shape := ⟨2, ![32, 64]⟩
abbrev S64x64 : Shape := ⟨2, ![64, 64]⟩
abbrev S64x104 : Shape := ⟨2, ![64, 104]⟩
abbrev S104 : Shape := ⟨1, ![104]⟩
abbrev S100000x32 : Shape := ⟨2, ![100000, 32]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1600000x64 : Shape := ⟨2, ![1600000, 64]⟩
abbrev S100000x1 : Shape := ⟨2, ![100000, 1]⟩
abbrev S1024x64 : Shape := ⟨2, ![1024, 64]⟩
abbrev S1024x104 : Shape := ⟨2, ![1024, 104]⟩
abbrev S1x104 : Shape := ⟨2, ![1, 104]⟩
abbrev S1024x1 : Shape := ⟨2, ![1024, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .i32⟩
  | .hbm, ⟨5, _⟩ => ⟨S100000, .f32⟩
  | .hbm, ⟨6, _⟩ => ⟨S1024, .i32⟩
  | .hbm, ⟨7, _⟩ => ⟨S128x32, .f32⟩
  | .hbm, ⟨8, _⟩ => ⟨S32x64, .f32⟩
  | .hbm, ⟨9, _⟩ => ⟨S64x64, .f32⟩
  | .hbm, ⟨10, _⟩ => ⟨S64x104, .f32⟩
  | .hbm, ⟨11, _⟩ => ⟨S104, .f32⟩
  | .hbm, ⟨12, _⟩ => ⟨S100000x32, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S1600000x1, .f32⟩
  | .hbm, ⟨23, _⟩ => ⟨S1600000x32, .f32⟩
  | .hbm, ⟨24, _⟩ => ⟨S1600000x32, .f32⟩
  | .hbm, ⟨25, _⟩ => ⟨S_, .f32⟩
  | .hbm, ⟨26, _⟩ => ⟨S100000x32, .f32⟩
  | .hbm, ⟨27, _⟩ => ⟨S1600000x1, .i32⟩
  | .hbm, ⟨28, _⟩ => ⟨S100000x32, .f32⟩
  | .hbm, ⟨29, _⟩ => ⟨S_, .f32⟩
  | .hbm, ⟨30, _⟩ => ⟨S100000x32, .f32⟩
  | .hbm, ⟨31, _⟩ => ⟨S100000x32, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S1600000x1, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S1600000x1, .f32⟩
  | .hbm, ⟨63, _⟩ => ⟨S1600000x64, .f32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S1024x64, .f32⟩
  | .hbm, ⟨77, _⟩ => ⟨S100000x1, .i32⟩
  | .hbm, ⟨78, _⟩ => ⟨S1024x64, .f32⟩
  | .hbm, ⟨79, _⟩ => ⟨S1024x104, .f32⟩
  | .hbm, ⟨80, _⟩ => ⟨S1x104, .f32⟩
  | .hbm, ⟨81, _⟩ => ⟨S1024x104, .f32⟩
  | .hbm, ⟨82, _⟩ => ⟨S1024x104, .f32⟩
  | .hbm, ⟨83, _⟩ => ⟨S1024x1, .i32⟩
  | .hbm, ⟨84, _⟩ => ⟨S1x104, .i32⟩
  | .hbm, ⟨85, _⟩ => ⟨S1024x104, .i32⟩
  | .hbm, ⟨86, _⟩ => ⟨S1024x104, .i32⟩
  | .hbm, ⟨87, _⟩ => ⟨S1024x104, .i1⟩
  | .hbm, ⟨88, _⟩ => ⟨S1024x104, .f32⟩
  | .hbm, ⟨89, _⟩ => ⟨S_, .f32⟩
  | .hbm, ⟨90, _⟩ => ⟨S1024, .f32⟩
  | .hbm, ⟨91, _⟩ => ⟨S_, .f32⟩
  | .hbm, ⟨92, _⟩ => ⟨S1024, .f32⟩
  | .hbm, ⟨93, _⟩ => ⟨S1024, .f32⟩
  | .hbm, ⟨94, _⟩ => ⟨S1024x1, .f32⟩
  | .hbm, ⟨95, _⟩ => ⟨S1024x104, .f32⟩
  | .hbm, ⟨96, _⟩ => ⟨S1024x104, .f32⟩
  | .hbm, ⟨97, _⟩ => ⟨S1024x104, .f32⟩
  | .hbm, ⟨98, _⟩ => ⟨S_, .f32⟩
  | .hbm, ⟨99, _⟩ => ⟨S1024, .f32⟩
  | .hbm, ⟨100, _⟩ => ⟨S1024x1, .f32⟩
  | .hbm, ⟨101, _⟩ => ⟨S1024x1, .f32⟩
  | .hbm, ⟨102, _⟩ => ⟨S1024x104, .f32⟩
  | .hbm, ⟨103, _⟩ => ⟨S1024x104, .f32⟩
  | .hbm, ⟨104, _⟩ => ⟨S1024x104, .f32⟩
  | .hbm, ⟨105, _⟩ => ⟨S_, .f32⟩
  | .hbm, ⟨106, _⟩ => ⟨S1024, .f32⟩
  | .hbm, ⟨107, _⟩ => ⟨S1024, .f32⟩
  | .hbm, ⟨108, _⟩ => ⟨S128x32, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_cst : Ref sig .tc := ⟨.hbm, 29, rfl⟩
abbrev main_call0_v0 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_cst : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call2_cst : Ref sig .tc := ⟨.hbm, 69, rfl⟩
abbrev main_call2_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v55 : Ref sig .tc := ⟨.hbm, 88, rfl⟩
abbrev main_call4_cst : Ref sig .tc := ⟨.hbm, 89, rfl⟩
abbrev main_call4_v0 : Ref sig .tc := ⟨.hbm, 90, rfl⟩
abbrev main_call4_cst_0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_v6 : Ref sig .tc := ⟨.hbm, 97, rfl⟩
abbrev main_call4_cst_1 : Ref sig .tc := ⟨.hbm, 98, rfl⟩
abbrev main_call4_v7 : Ref sig .tc := ⟨.hbm, 99, rfl⟩
abbrev main_call4_v8 : Ref sig .tc := ⟨.hbm, 100, rfl⟩
abbrev main_call4_v9 : Ref sig .tc := ⟨.hbm, 101, rfl⟩
abbrev main_call4_v10 : Ref sig .tc := ⟨.hbm, 102, rfl⟩
abbrev main_v56 : Ref sig .tc := ⟨.hbm, 103, rfl⟩
abbrev main_v57 : Ref sig .tc := ⟨.hbm, 104, rfl⟩
abbrev main_cst_8 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_9 : Ref sig .tc := ⟨.hbm, 109, rfl⟩
abbrev main_v61 : Ref sig .tc := ⟨.hbm, 110, rfl⟩
abbrev main_cst_10 : Ref sig .tc := ⟨.hbm, 111, rfl⟩
abbrev main_v62 : Ref sig .tc := ⟨.hbm, 112, rfl⟩
abbrev main_cst_11 : Ref sig .tc := ⟨.hbm, 113, rfl⟩
abbrev main_v63 : Ref sig .tc := ⟨.hbm, 114, rfl⟩
abbrev main_cst_12 : Ref sig .tc := ⟨.hbm, 115, rfl⟩
abbrev main_v64 : Ref sig .tc := ⟨.hbm, 116, rfl⟩
abbrev main_v65 : Ref sig .tc := ⟨.hbm, 117, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1024x64 : S_.BroadcastsInDim S1024x64 (![] : Fin 0 → Fin S1024x64.rank)
  bcast_S104_S1x104_1 : S104.BroadcastsInDim S1x104 (![1] : Fin 1 → Fin S1x104.rank)
  bcast_S1x104_S1024x104_0_1 : S1x104.BroadcastsInDim S1024x104 (![0, 1] : Fin 2 → Fin S1024x104.rank)
  bcast_S1024_S1024x1_0 : S1024.BroadcastsInDim S1024x1 (![0] : Fin 1 → Fin S1024x1.rank)
  bcast_S1024x1_S1024x104_0_1 : S1024x1.BroadcastsInDim S1024x104 (![0, 1] : Fin 2 → Fin S1024x104.rank)
  reducesTo_S1024x104_S1024_d1 : S1024x104.ReducesTo [1] S1024
  h_S_ : 0 < S_.numel
  bcast_S_S1024 : S_.BroadcastsInDim S1024 (![] : Fin 0 → Fin S1024.rank)
  reducesTo_S128x32_S_d0_1 : S128x32.ReducesTo [0, 1] S_
  reducesTo_S1024_S_d0 : S1024.ReducesTo [0] S_
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  dot_S1024x64_S64x104_S1024x104_1_0_0_1_n_n_wf : DotDims.WF S1024x64 S64x104 S1024x104 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def dot_S1024x64_S64x104_S1024x104_1_0_0_1_n_n : DotDims S1024x64 S64x104 S1024x104 where
  lhsContracting := [1]
  rhsContracting := [0]
  lhsNonContracting := [0]
  rhsNonContracting := [1]
  lhsBatch := []
  rhsBatch := []
  wf := dot_S1024x64_S64x104_S1024x104_1_0_0_1_n_n_wf

class Facts : Prop extends Facts₀ where

variable [Facts]
-- ==== Proof.RefRun.lean ====
/-
  The reference's run and its read-at-an-index lemmas, gathered under one import for the modules that compare the
  reference's stages with the kernel's regions.
-/
import proofs.«422714_j21131239097136_1_alg».proof.Proof.ReferenceIdealRun
import proofs.«422714_j21131239097136_1_alg».proof.Proof.ReferenceIdealRead
-- ==== Proof.Kept.lean ====
/-
  What the argument buffers hold at each boundary of the kernel's program: no host operation and no region writes an
  argument array (a region reads it through an input window, which it leaves as found, or does not touch it), so at every
  boundary an argument's buffer holds the launch contents. One line per (argument, boundary) pair the level modules cite.
-/
import proofs.«422714_j21131239097136_1_alg».proof.Proof.KernelIdealFrame

noncomputable section

namespace Cert.KernelIdeal.Kept

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- A host stretch leaves a buffer none of its operations writes as it was: every operation's result buffer is another
    reference. -/
macro "host_keeps" : tactic => `(tactic| exact StableHlo.after_of_forall_not_mem _ _ (List.forall_iff_forall_mem.mp (by
  simp only [hostOps1, hostOps2, hostOps3, hostOps4, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## Boundary 1 -/

theorem W1_arg1 : W1 m ρ c (Proc.devRef .tc main_arg1) = m ((c : Thread nD τ).loc main_arg1) :=
  W1_of_ne m ρ c main_arg1 (by decide)
theorem W1_arg2 : W1 m ρ c (Proc.devRef .tc main_arg2) = m ((c : Thread nD τ).loc main_arg2) :=
  W1_of_ne m ρ c main_arg2 (by decide)
theorem W1_arg3 : W1 m ρ c (Proc.devRef .tc main_arg3) = m ((c : Thread nD τ).loc main_arg3) :=
  W1_of_ne m ρ c main_arg3 (by decide)
theorem W1_arg4 : W1 m ρ c (Proc.devRef .tc main_arg4) = m ((c : Thread nD τ).loc main_arg4) :=
  W1_of_ne m ρ c main_arg4 (by decide)
theorem W1_arg5 : W1 m ρ c (Proc.devRef .tc main_arg5) = m ((c : Thread nD τ).loc main_arg5) :=
  W1_of_ne m ρ c main_arg5 (by decide)
theorem W1_arg6 : W1 m ρ c (Proc.devRef .tc main_arg6) = m ((c : Thread nD τ).loc main_arg6) :=
  W1_of_ne m ρ c main_arg6 (by decide)
theorem W1_arg7 : W1 m ρ c (Proc.devRef .tc main_arg7) = m ((c : Thread nD τ).loc main_arg7) :=
  (W1_arr m ρ c 1).trans (((dat0 (V0 m ρ) c).arrAt_in 1 rfl _).trans (A_eq0 (V0 m ρ) c 1))
theorem W1_arg8 : W1 m ρ c (Proc.devRef .tc main_arg8) = m ((c : Thread nD τ).loc main_arg8) :=
  W1_of_ne m ρ c main_arg8 (by decide)
theorem W1_arg9 : W1 m ρ c (Proc.devRef .tc main_arg9) = m ((c : Thread nD τ).loc main_arg9) :=
  W1_of_ne m ρ c main_arg9 (by decide)
theorem W1_arg10 : W1 m ρ c (Proc.devRef .tc main_arg10) = m ((c : Thread nD τ).loc main_arg10) :=
  W1_of_ne m ρ c main_arg10 (by decide)
theorem W1_arg11 : W1 m ρ c (Proc.devRef .tc main_arg11) = m ((c : Thread nD τ).loc main_arg11) :=
  W1_of_ne m ρ c main_arg11 (by decide)

/-! ## Boundary 2 -/

theorem W2_arg1 : W2 m ρ c (Proc.devRef .tc main_arg1) = m ((c : Thread nD τ).loc main_arg1) :=
  (by host_keeps : W2 m ρ c (Proc.devRef .tc main_arg1) = W1 m ρ c (Proc.devRef .tc main_arg1)).trans (W1_arg1 m ρ c)
theorem W2_arg2 : W2 m ρ c (Proc.devRef .tc main_arg2) = m ((c : Thread nD τ).loc main_arg2) :=
  (by host_keeps : W2 m ρ c (Proc.devRef .tc main_arg2) = W1 m ρ c (Proc.devRef .tc main_arg2)).trans (W1_arg2 m ρ c)
theorem W2_arg3 : W2 m ρ c (Proc.devRef .tc main_arg3) = m ((c : Thread nD τ).loc main_arg3) :=
  (by host_keeps : W2 m ρ c (Proc.devRef .tc main_arg3) = W1 m ρ c (Proc.devRef .tc main_arg3)).trans (W1_arg3 m ρ c)
theorem W2_arg4 : W2 m ρ c (Proc.devRef .tc main_arg4) = m ((c : Thread nD τ).loc main_arg4) :=
  (by host_keeps : W2 m ρ c (Proc.devRef .tc main_arg4) = W1 m ρ c (Proc.devRef .tc main_arg4)).trans (W1_arg4 m ρ c)
theorem W2_arg5 : W2 m ρ c (Proc.devRef .tc main_arg5) = m ((c : Thread nD τ).loc main_arg5) :=
  (by host_keeps : W2 m ρ c (Proc.devRef .tc main_arg5) = W1 m ρ c (Proc.devRef .tc main_arg5)).trans (W1_arg5 m ρ c)
theorem W2_arg6 : W2 m ρ c (Proc.devRef .tc main_arg6) = m ((c : Thread nD τ).loc main_arg6) :=
  (by host_keeps : W2 m ρ c (Proc.devRef .tc main_arg6) = W1 m ρ c (Proc.devRef .tc main_arg6)).trans (W1_arg6 m ρ c)
theorem W2_arg7 : W2 m ρ c (Proc.devRef .tc main_arg7) = m ((c : Thread nD τ).loc main_arg7) :=
  (by host_keeps : W2 m ρ c (Proc.devRef .tc main_arg7) = W1 m ρ c (Proc.devRef .tc main_arg7)).trans (W1_arg7 m ρ c)
theorem W2_arg8 : W2 m ρ c (Proc.devRef .tc main_arg8) = m ((c : Thread nD τ).loc main_arg8) :=
  (by host_keeps : W2 m ρ c (Proc.devRef .tc main_arg8) = W1 m ρ c (Proc.devRef .tc main_arg8)).trans (W1_arg8 m ρ c)
theorem W2_arg9 : W2 m ρ c (Proc.devRef .tc main_arg9) = m ((c : Thread nD τ).loc main_arg9) :=
  (by host_keeps : W2 m ρ c (Proc.devRef .tc main_arg9) = W1 m ρ c (Proc.devRef .tc main_arg9)).trans (W1_arg9 m ρ c)
theorem W2_arg10 : W2 m ρ c (Proc.devRef .tc main_arg10) = m ((c : Thread nD τ).loc main_arg10) :=
  (by host_keeps : W2 m ρ c (Proc.devRef .tc main_arg10) = W1 m ρ c (Proc.devRef .tc main_arg10)).trans (W1_arg10 m ρ c)
theorem W2_arg11 : W2 m ρ c (Proc.devRef .tc main_arg11) = m ((c : Thread nD τ).loc main_arg11) :=
  (by host_keeps : W2 m ρ c (Proc.devRef .tc main_arg11) = W1 m ρ c (Proc.devRef .tc main_arg11)).trans (W1_arg11 m ρ c)

/-! ## Boundary 3 -/

theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_arg3 : W3 m ρ c (Proc.devRef .tc main_arg3) = m ((c : Thread nD τ).loc main_arg3) :=
  (W3_of_ne m ρ c main_arg3 (by decide)).trans (W2_arg3 m ρ c)
theorem W3_arg4 : W3 m ρ c (Proc.devRef .tc main_arg4) = m ((c : Thread nD τ).loc main_arg4) :=
  (W3_of_ne m ρ c main_arg4 (by decide)).trans (W2_arg4 m ρ c)
theorem W3_arg5 : W3 m ρ c (Proc.devRef .tc main_arg5) = m ((c : Thread nD τ).loc main_arg5) :=
  (W3_of_ne m ρ c main_arg5 (by decide)).trans (W2_arg5 m ρ c)
theorem W3_arg6 : W3 m ρ c (Proc.devRef .tc main_arg6) = m ((c : Thread nD τ).loc main_arg6) :=
  (W3_of_ne m ρ c main_arg6 (by decide)).trans (W2_arg6 m ρ c)
theorem W3_arg7 : W3 m ρ c (Proc.devRef .tc main_arg7) = m ((c : Thread nD τ).loc main_arg7) :=
  (W3_of_ne m ρ c main_arg7 (by decide)).trans (W2_arg7 m ρ c)
theorem W3_arg9 : W3 m ρ c (Proc.devRef .tc main_arg9) = m ((c : Thread nD τ).loc main_arg9) :=
  (W3_of_ne m ρ c main_arg9 (by decide)).trans (W2_arg9 m ρ c)
theorem W3_arg10 : W3 m ρ c (Proc.devRef .tc main_arg10) = m ((c : Thread nD τ).loc main_arg10) :=
  (W3_of_ne m ρ c main_arg10 (by decide)).trans (W2_arg10 m ρ c)
theorem W3_arg11 : W3 m ρ c (Proc.devRef .tc main_arg11) = m ((c : Thread nD τ).loc main_arg11) :=
  (W3_of_ne m ρ c main_arg11 (by decide)).trans (W2_arg11 m ρ c)

/-! ## Boundary 4 -/

theorem W4_arg1 : W4 m ρ c (Proc.devRef .tc main_arg1) = m ((c : Thread nD τ).loc main_arg1) :=
  (by host_keeps : W4 m ρ c (Proc.devRef .tc main_arg1) = W3 m ρ c (Proc.devRef .tc main_arg1)).trans (W3_arg1 m ρ c)
theorem W4_arg2 : W4 m ρ c (Proc.devRef .tc main_arg2) = m ((c : Thread nD τ).loc main_arg2) :=
  (by host_keeps : W4 m ρ c (Proc.devRef .tc main_arg2) = W3 m ρ c (Proc.devRef .tc main_arg2)).trans (W3_arg2 m ρ c)
theorem W4_arg3 : W4 m ρ c (Proc.devRef .tc main_arg3) = m ((c : Thread nD τ).loc main_arg3) :=
  (by host_keeps : W4 m ρ c (Proc.devRef .tc main_arg3) = W3 m ρ c (Proc.devRef .tc main_arg3)).trans (W3_arg3 m ρ c)
theorem W4_arg4 : W4 m ρ c (Proc.devRef .tc main_arg4) = m ((c : Thread nD τ).loc main_arg4) :=
  (by host_keeps : W4 m ρ c (Proc.devRef .tc main_arg4) = W3 m ρ c (Proc.devRef .tc main_arg4)).trans (W3_arg4 m ρ c)
theorem W4_arg5 : W4 m ρ c (Proc.devRef .tc main_arg5) = m ((c : Thread nD τ).loc main_arg5) :=
  (by host_keeps : W4 m ρ c (Proc.devRef .tc main_arg5) = W3 m ρ c (Proc.devRef .tc main_arg5)).trans (W3_arg5 m ρ c)
theorem W4_arg6 : W4 m ρ c (Proc.devRef .tc main_arg6) = m ((c : Thread nD τ).loc main_arg6) :=
  (by host_keeps : W4 m ρ c (Proc.devRef .tc main_arg6) = W3 m ρ c (Proc.devRef .tc main_arg6)).trans (W3_arg6 m ρ c)
theorem W4_arg7 : W4 m ρ c (Proc.devRef .tc main_arg7) = m ((c : Thread nD τ).loc main_arg7) :=
  (by host_keeps : W4 m ρ c (Proc.devRef .tc main_arg7) = W3 m ρ c (Proc.devRef .tc main_arg7)).trans (W3_arg7 m ρ c)
theorem W4_arg9 : W4 m ρ c (Proc.devRef .tc main_arg9) = m ((c : Thread nD τ).loc main_arg9) :=
  (by host_keeps : W4 m ρ c (Proc.devRef .tc main_arg9) = W3 m ρ c (Proc.devRef .tc main_arg9)).trans (W3_arg9 m ρ c)
theorem W4_arg10 : W4 m ρ c (Proc.devRef .tc main_arg10) = m ((c : Thread nD τ).loc main_arg10) :=
  (by host_keeps : W4 m ρ c (Proc.devRef .tc main_arg10) = W3 m ρ c (Proc.devRef .tc main_arg10)).trans (W3_arg10 m ρ c)
theorem W4_arg11 : W4 m ρ c (Proc.devRef .tc main_arg11) = m ((c : Thread nD τ).loc main_arg11) :=
  (by host_keeps : W4 m ρ c (Proc.devRef .tc main_arg11) = W3 m ρ c (Proc.devRef .tc main_arg11)).trans (W3_arg11 m ρ c)

/-! ## Boundary 5 -/

theorem W5_arg1 : W5 m ρ c (Proc.devRef .tc main_arg1) = m ((c : Thread nD τ).loc main_arg1) :=
  (W5_of_ne m ρ c main_arg1 (by decide)).trans (W4_arg1 m ρ c)
theorem W5_arg2 : W5 m ρ c (Proc.devRef .tc main_arg2) = m ((c : Thread nD τ).loc main_arg2) :=
  (W5_of_ne m ρ c main_arg2 (by decide)).trans (W4_arg2 m ρ c)
theorem W5_arg3 : W5 m ρ c (Proc.devRef .tc main_arg3) = m ((c : Thread nD τ).loc main_arg3) :=
  (W5_of_ne m ρ c main_arg3 (by decide)).trans (W4_arg3 m ρ c)
theorem W5_arg4 : W5 m ρ c (Proc.devRef .tc main_arg4) = m ((c : Thread nD τ).loc main_arg4) :=
  (W5_of_ne m ρ c main_arg4 (by decide)).trans (W4_arg4 m ρ c)
theorem W5_arg5 : W5 m ρ c (Proc.devRef .tc main_arg5) = m ((c : Thread nD τ).loc main_arg5) :=
  (W5_of_ne m ρ c main_arg5 (by decide)).trans (W4_arg5 m ρ c)
theorem W5_arg6 : W5 m ρ c (Proc.devRef .tc main_arg6) = m ((c : Thread nD τ).loc main_arg6) :=
  (W5_of_ne m ρ c main_arg6 (by decide)).trans (W4_arg6 m ρ c)
theorem W5_arg7 : W5 m ρ c (Proc.devRef .tc main_arg7) = m ((c : Thread nD τ).loc main_arg7) :=
  (W5_of_ne m ρ c main_arg7 (by decide)).trans (W4_arg7 m ρ c)
theorem W5_arg10 : W5 m ρ c (Proc.devRef .tc main_arg10) = m ((c : Thread nD τ).loc main_arg10) :=
  (W5_of_ne m ρ c main_arg10 (by decide)).trans (W4_arg10 m ρ c)
theorem W5_arg11 : W5 m ρ c (Proc.devRef .tc main_arg11) = m ((c : Thread nD τ).loc main_arg11) :=
  (W5_of_ne m ρ c main_arg11 (by decide)).trans (W4_arg11 m ρ c)

/-! ## Boundary 6 -/

theorem W6_arg6 : W6 m ρ c (Proc.devRef .tc main_arg6) = m ((c : Thread nD τ).loc main_arg6) :=
  (by host_keeps : W6 m ρ c (Proc.devRef .tc main_arg6) = W5 m ρ c (Proc.devRef .tc main_arg6)).trans (W5_arg6 m ρ c)
theorem W6_arg7 : W6 m ρ c (Proc.devRef .tc main_arg7) = m ((c : Thread nD τ).loc main_arg7) :=
  (by host_keeps : W6 m ρ c (Proc.devRef .tc main_arg7) = W5 m ρ c (Proc.devRef .tc main_arg7)).trans (W5_arg7 m ρ c)
theorem W6_arg10 : W6 m ρ c (Proc.devRef .tc main_arg10) = m ((c : Thread nD τ).loc main_arg10) :=
  (by host_keeps : W6 m ρ c (Proc.devRef .tc main_arg10) = W5 m ρ c (Proc.devRef .tc main_arg10)).trans (W5_arg10 m ρ c)
theorem W6_arg11 : W6 m ρ c (Proc.devRef .tc main_arg11) = m ((c : Thread nD τ).loc main_arg11) :=
  (by host_keeps : W6 m ρ c (Proc.devRef .tc main_arg11) = W5 m ρ c (Proc.devRef .tc main_arg11)).trans (W5_arg11 m ρ c)

/-! ## Boundary 7 -/

theorem W7_arg6 : W7 m ρ c (Proc.devRef .tc main_arg6) = m ((c : Thread nD τ).loc main_arg6) :=
  (W7_of_ne m ρ c main_arg6 (by decide)).trans (W6_arg6 m ρ c)
theorem W7_arg7 : W7 m ρ c (Proc.devRef .tc main_arg7) = m ((c : Thread nD τ).loc main_arg7) :=
  (W7_of_ne m ρ c main_arg7 (by decide)).trans (W6_arg7 m ρ c)
theorem W7_arg10 : W7 m ρ c (Proc.devRef .tc main_arg10) = m ((c : Thread nD τ).loc main_arg10) :=
  (W7_of_ne m ρ c main_arg10 (by decide)).trans (W6_arg10 m ρ c)
theorem W7_arg11 : W7 m ρ c (Proc.devRef .tc main_arg11) = m ((c : Thread nD τ).loc main_arg11) :=
  (W7_of_ne m ρ c main_arg11 (by decide)).trans (W6_arg11 m ρ c)

/-! ## Boundary 8 -/

theorem W8_arg7 : W8 m ρ c (Proc.devRef .tc main_arg7) = m ((c : Thread nD τ).loc main_arg7) :=
  (by host_keeps : W8 m ρ c (Proc.devRef .tc main_arg7) = W7 m ρ c (Proc.devRef .tc main_arg7)).trans (W7_arg7 m ρ c)
theorem W8_arg10 : W8 m ρ c (Proc.devRef .tc main_arg10) = m ((c : Thread nD τ).loc main_arg10) :=
  (by host_keeps : W8 m ρ c (Proc.devRef .tc main_arg10) = W7 m ρ c (Proc.devRef .tc main_arg10)).trans (W7_arg10 m ρ c)

/-! ## Boundary 9 -/

theorem W9_arg7 : W9 m ρ c (Proc.devRef .tc main_arg7) = m ((c : Thread nD τ).loc main_arg7) :=
  (W9_of_ne m ρ c main_arg7 (by decide)).trans (W8_arg7 m ρ c)

end Cert.KernelIdeal.Kept

end
-- ==== Proof.Stages.lean ====
/-
  The reference's last stretch — the mean softmax cross-entropy of the logits against the labels — as ONE function of the
  logits array, and the reference's loss stage as that function of its logits stage. The kernel's last region computes its
  loss from the logits it has just stored, so the two sides are compared at a logits array, not at the arguments.
-/
import proofs.«422714_j21131239097136_1_alg».proof.Proof.RefRun

noncomputable section

namespace Cert.ReferenceIdeal.Stage

open Cert.ReferenceIdeal Cert.ReferenceIdeal.Gen Cert.ReferenceIdeal.Read Idealize.ShloMosaic Idealize.ShloMosaic.TcCoe Idealize.ShloMosaic.StableHlo

variable {F : FTy → Type} [FloatOps F]

/-- The row maxima of a logits array, as `jax.nn.log_softmax` takes them: the maximum with `-∞` of the max-reduction from `-∞`. -/
def rowMax (lg : (⟨S1024x104, .f32⟩ : BufTy).Contents (Elt F)) : (⟨S1024, .f32⟩ : BufTy).Contents (Elt F) :=
  maximumf (val_main_call4_v1 (F := F)) (Host.reduce FloatOps.maximumf lg (val_main_call4_cst (F := F)) reducesTo_S1024x104_S1024_d1 h_S_)

/-- The logits less their row maximum. -/
def shifted (lg : (⟨S1024x104, .f32⟩ : BufTy).Contents (Elt F)) : (⟨S1024x104, .f32⟩ : BufTy).Contents (Elt F) :=
  subf lg (broadcastInDim S1024x104 ![0, 1] bcast_S1024x1_S1024x104_0_1 (broadcastInDim S1024x1 ![0] bcast_S1024_S1024x1_0 (rowMax lg)))

/-- `log_softmax`: the shifted logits less the logarithm of the row sum of their exponentials. -/
def logSoftmax (lg : (⟨S1024x104, .f32⟩ : BufTy).Contents (Elt F)) : (⟨S1024x104, .f32⟩ : BufTy).Contents (Elt F) :=
  subf (shifted lg) (broadcastInDim S1024x104 ![0, 1] bcast_S1024x1_S1024x104_0_1 (Host.log (broadcastInDim S1024x1 ![0] bcast_S1024_S1024x1_0
    (Host.reduceAdd (Host.exp (shifted lg)) (val_main_call4_cst_1 (F := F)) reducesTo_S1024x104_S1024_d1 h_S_))))

/-- The mean over the 1024 rows of minus the row sum of `one_hot(label) · log_softmax(logits)`. -/
def ceOfLogits (lg : (⟨S1024x104, .f32⟩ : BufTy).Contents (Elt F)) (x6 : (⟨S1024, .i32⟩ : BufTy).Contents (Elt F)) : (⟨S_, .f32⟩ : BufTy).Contents (Elt F) :=
  Host.divf (Host.reduceAdd (Host.negf (Host.reduceAdd (mulf (val_main_v55 (F := F) x6) (logSoftmax lg)) (val_main_cst_8 (F := F)) reducesTo_S1024x104_S1024_d1 h_S_))
    (val_main_cst_11 (F := F)) reducesTo_S1024_S_d0 h_S_) (val_main_cst_12 (F := F))

/-- The reference's cross-entropy stage is `ceOfLogits` of its logits stage. -/
theorem val_main_v64_eq (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S100000, .i32⟩ : BufTy).Contents (Elt F)) (x5 : (⟨S100000, .f32⟩ : BufTy).Contents (Elt F)) (x6 : (⟨S1024, .i32⟩ : BufTy).Contents (Elt F)) (x7 : (⟨S128x32, .f32⟩ : BufTy).Contents (Elt F)) (x8 : (⟨S32x64, .f32⟩ : BufTy).Contents (Elt F)) (x9 : (⟨S64x64, .f32⟩ : BufTy).Contents (Elt F)) (x10 : (⟨S64x104, .f32⟩ : BufTy).Contents (Elt F)) (x11 : (⟨S104, .f32⟩ : BufTy).Contents (Elt F)) :
    val_main_v64 (F := F) x0 x1 x2 x3 x4 x5 x6 x7 x8 x9 x10 x11
      = ceOfLogits (val_main_v54 (F := F) x0 x1 x2 x3 x4 x5 x7 x8 x9 x10 x11) x6 := rfl

end Cert.ReferenceIdeal.Stage

end
-- ==== Proof.Region0.lean ====
/-
  Region 0 of the kernel's program: the 20 row blocks of x times W1. After the region its output array is the whole
  product, the reference's first stage of the region's two input arrays.
-/
import proofs.«422714_j21131239097136_1_alg».proof.Proof.KernelIdealFrame
import proofs.«422714_j21131239097136_1_alg».proof.Proof.RefRun
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Cert.KernelIdeal Cert.KernelIdeal.Gen

namespace Cert.KernelIdeal.Region0

open Idealize.ShloMosaic.ValueIdx

/-! ## The block product at an index -/

theorem lhs_blk_0 (i : S5000x32.Idx) (q : dot_S5000x128_S128x32_S5000x32_1_0_0_1_n_n.contr.Idx) :
    (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem lhs_blk_1 (i : S5000x32.Idx) (q : dot_S5000x128_S128x32_S5000x32_1_0_0_1_n_n.contr.Idx) :
    (dot_S5000x128_S128x32_S5000x32_1_0_0_1_n_n.lhsIdx i q 1).val = (q ⟨0, by decide⟩).val :=
  dot_S5000x128_S128x32_S5000x32_1_0_0_1_n_n.lhsIdx_val_of_single rfl i q
theorem rhs_blk_0 (i : S5000x32.Idx) (q : dot_S5000x128_S128x32_S5000x32_1_0_0_1_n_n.contr.Idx) :
    (dot_S5000x128_S128x32_S5000x32_1_0_0_1_n_n.rhsIdx i q 0).val = (q ⟨0, by decide⟩).val :=
  dot_S5000x128_S128x32_S5000x32_1_0_0_1_n_n.rhsIdx_val_of_single rfl i q
theorem rhs_blk_1 (i : S5000x32.Idx) (q : dot_S5000x128_S128x32_S5000x32_1_0_0_1_n_n.contr.Idx) :
    (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The body's payload at row `p`, column `q`: the sum over `k` of the block's entry `(p, k)` times the weight's `(k, q)`. -/
theorem pay_apply (x : Vec Ideal S5000x128 .f32) (w : Vec Ideal S128x32 .f32) (p : Fin 5000) (q : Fin 32) :
    k0_pay1 (F := Ideal) x w (ix2 p q) = ∑ k : Fin 128, x (ix2 p k) * w (ix2 k q) := by
  unfold k0_pay1
  refine (Ideal.matmul_constant_zero_apply dot_S5000x128_S128x32_S5000x32_1_0_0_1_n_n none _ _ (ix2 p q)).trans ?_
  rw [← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 p q) ((contrEquiv1 dot_S5000x128_S128x32_S5000x32_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x32_S5000x32_1_0_0_1_n_n.rhsIdx (ix2 p q) ((contrEquiv1 dot_S5000x128_S128x32_S5000x32_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]
  rfl

/-! ## From the blocks to the array -/

theorem zero_offsets : (![0, 0] : Fin 2 → Nat) = fun _ => 0 := funext fun a => by fin_cases a <;> rfl

/-- The product of the two arrays: entry `(r, s)` is the sum over `k` of `X (r, k) * W (k, s)`. -/
def rowsTimes (X : Vec Ideal S100000x128 .f32) (W : Vec Ideal S128x32 .f32) : Vec Ideal S100000x32 .f32 :=
  fun i => ∑ k : Fin 128, X (ix2 (⟨(i 0).val, idx2_lt0 i⟩ : Fin 100000) k) * W (ix2 k (⟨(i 1).val, idx2_lt1 i⟩ : Fin 32))

theorem rowsTimes_apply (X : Vec Ideal S100000x128 .f32) (W : Vec Ideal S128x32 .f32) (r : Fin 100000) (s : Fin 32) :
    rowsTimes X W (ix2 r s) = ∑ k : Fin 128, X (ix2 r k) * W (ix2 k s) := rfl

/-- The printed index maps over the grid: the two row-blocked windows sit at row block `t`, column block 0; the weight's
    window at its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of 5000 rows of `X` starting at row `5000 n`, times `W`, is the same rows of the product. -/
theorem block_apply (X : Vec Ideal S100000x128 .f32) (W : Vec Ideal S128x32 .f32)
    (xb : Vec Ideal S5000x128 .f32) (wb : Vec Ideal S128x32 .f32) (n : Nat)
    (hx : ∀ (p : Fin 5000) (k : Fin 128) (r : Fin 100000), r.val = n * 5000 + p.val → xb (ix2 p k) = X (ix2 r k))
    (hw : ∀ (k : Fin 128) (q : Fin 32), wb (ix2 k q) = W (ix2 k q))
    (j : S5000x32.Idx) (i : S100000x32.Idx) (hi0 : (i 0).val = n * 5000 + (j 0).val) (hi1 : (i 1).val = (j 1).val) :
    k0_pay1 (F := Ideal) xb wb j = rowsTimes X W i := by
  obtain ⟨p, q, rfl⟩ : ∃ (p : Fin 5000) (q : Fin 32), j = ix2 p q := ⟨j 0, j 1, eq_ix2 j⟩
  obtain ⟨r, s, rfl⟩ : ∃ (r : Fin 100000) (s : Fin 32), i = ix2 r s := ⟨i 0, i 1, eq_ix2 i⟩
  have hs : s = q := Fin.ext hi1
  subst hs
  rw [pay_apply, rowsTimes_apply]
  exact Finset.sum_congr rfl fun k _ => by rw [hx p k r hi0, hw k s]

variable (V : (c : Dev nD) → (b : Ref sig .tc) → Buf (Elt Ideal) ((c : Thread nD τ).loc b))

/-- What point `t` writes back is block `t` of the product of the region's two input arrays. -/
theorem written_back_eq (c : Dev nD) (t : Fin cfg0.N) :
    (dat0 (F := Ideal) V c).flushed 2 t
      = ((cfg0.win 2).blk t).view.read (Elt Ideal) (rowsTimes (V c main_arg0) (V c main_arg7)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x32) zero_offsets]
  obtain ⟨e00, e01, e10, e11, e20, e21⟩ := block_indices t
  funext j
  show k0_pay1 (F := Ideal) (iblk0 V c 0 t) (iblk0 V c 1 t) j
    = rowsTimes (V c main_arg0) (V c main_arg7) (((cfg0.win 2).blk t).view.emb j)
  refine block_apply (V c main_arg0) (V c main_arg7) (iblk0 V c 0 t) (iblk0 V c 1 t) t.val ?_ ?_ j
    (((cfg0.win 2).blk t).view.emb j) ?_ ?_
  · intro p k r hr
    show V c main_arg0 (((cfg0.win 0).blk t).view.emb (ix2 p k)) = V c main_arg0 (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · intro k q
    show V c main_arg7 (((cfg0.win 1).blk t).view.emb (ix2 k q)) = V c main_arg7 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 32 + 1 * q.val = q.val; omega
  · show win0_2.index t (0 : Fin 2) * 5000 + 1 * (j 0).val = t.val * 5000 + (j 0).val; omega
  · show win0_2.index t (1 : Fin 2) * 32 + 1 * (j 1).val = (j 1).val; omega

/-- An index of the output array is in point `t`'s block iff each coordinate is in the block's range on its axis. -/
theorem mem_row_block (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v0).slice (win0_2.rect t)).set ↔ _
  rw [View.set_slice_whole, Rect.mem_set_unit]
  exact Iff.rfl

/-- Row `r` of the output array is in the block of point `r / 5000`. -/
theorem row_blocks_cover (i : S100000x32.Idx) :
    ∃ t : Fin cfg0.N, (cfg0.win 2).flush t = true ∧ i ∈ ((cfg0.win 2).blk t).view.set := by
  have hi0 : (i 0).val < 100000 := idx2_lt0 i
  have hi1 : (i 1).val < 32 := idx2_lt1 i
  have hN : cfg0.N = 20 := N_0
  obtain ⟨t, ht⟩ : ∃ t : Fin cfg0.N, t.val = (i 0).val / 5000 := ⟨⟨(i 0).val / 5000, by rw [hN]; omega⟩, rfl⟩
  obtain ⟨e00, e01, e10, e11, e20, e21⟩ := block_indices t
  refine ⟨t, flush0_2 t, ?_⟩
  rw [mem_row_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After the region the output array is the product of the two input arrays. -/
theorem arr_rowsTimes (c : Dev nD) :
    (dat0 (F := Ideal) V c).arrAt 2 cfg0.N = rowsTimes (V c main_arg0) (V c main_arg7) :=
  (dat0 (F := Ideal) V c).arrAt_eq_of_cover 2 (rowsTimes (V c main_arg0) (V c main_arg7))
    (fun t _ => written_back_eq V c t) row_blocks_cover

/-- The product, entry by entry, is the reference's `dot_general` of the two arrays. -/
theorem rowsTimes_eq_ref (X : Vec Ideal S100000x128 .f32) (W : Vec Ideal S128x32 .f32) :
    rowsTimes X W = Cert.ReferenceIdeal.Read.val_main_v0 (F := Ideal) X W := by
  funext i
  obtain ⟨r, s, rfl⟩ : ∃ (r : Fin 100000) (s : Fin 32), i = ix2 r s := ⟨i 0, i 1, eq_ix2 i⟩
  rw [rowsTimes_apply]
  refine Eq.trans ?_ (Cert.ReferenceIdeal.Read.val_main_v0_apply X W (ix2 r s)).symm
  refine Finset.sum_congr rfl fun k _ => ?_
  have el : Cert.ReferenceIdeal.Read.lidx_main_v0 (ix2 r s) k = ix2 r k :=
    funext fun a => Fin.ext (by match a with | ⟨0, _⟩ => rfl | ⟨1, _⟩ => rfl)
  have er : Cert.ReferenceIdeal.Read.ridx_main_v0 (ix2 r s) k = ix2 k s :=
    funext fun a => Fin.ext (by match a with | ⟨0, _⟩ => rfl | ⟨1, _⟩ => rfl)
  rw [el, er]

/-- After region 0 its output array is the reference's `x @ W1` stage of the arrays the region read. -/
theorem arr (V : (c : Dev nD) → (b : Ref sig .tc) → Buf (Elt Ideal) ((c : Thread nD τ).loc b)) (c : Dev nD) :
    (dat0 (F := Ideal) V c).arrAt 2 cfg0.N
      = Cert.ReferenceIdeal.Read.val_main_v0 (F := Ideal) (V c main_arg0) (V c main_arg7) := by
  rw [arr_rowsTimes V c]
  exact rowsTimes_eq_ref (V c main_arg0) (V c main_arg7)

end Cert.KernelIdeal.Region0

end
-- ==== Proof.Region1.lean ====
/-
  Region 1: the 20 row blocks of relu(h1) times W2. After the region its output array is the reference's matrix product of
  the rectified input array with W2.
-/
import proofs.«422714_j21131239097136_1_alg».proof.Proof.KernelIdealFrame
import proofs.«422714_j21131239097136_1_alg».proof.Proof.RefRun
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Cert.KernelIdeal Cert.KernelIdeal.Gen

namespace Cert.KernelIdeal.Region1

open Idealize.ShloMosaic.ValueIdx

/-! ## The rectified product, as one function of the two arrays -/

/-- Entry (r, j) of relu(h) times w: the sum over k of max(h (r, k), 0) times w (k, j). -/
def reluProd (h : Vec Ideal S100000x32 .f32) (w : Vec Ideal S32x64 .f32) : Vec Ideal S100000x64 .f32 :=
  fun i => ∑ k : Fin 32, max (h (ix2 ⟨(i 0).val, (i 0).isLt⟩ k)) (Ideal.ofBits .f32 0x00000000#32) * w (ix2 k ⟨(i 1).val, (i 1).isLt⟩)

/-! ## The block product at an entry -/

theorem blkdot_lhs_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem blkdot_lhs_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem blkdot_rhs_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem blkdot_rhs_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The body's arithmetic at entry (p, q) of the block: row p of the rectified input block times column q of the weights. -/
theorem blkpay_ix (x0 : Vec Ideal S5000x32 .f32) (x1 : Vec Ideal S32x64 .f32) (p : Fin 5000) (q : Fin 64) :
    k1_pay1 (F := Ideal) x0 x1 (ix2 p q)
      = ∑ k : Fin 32, max (x0 (ix2 p k)) (Ideal.ofBits .f32 0x00000000#32) * x1 (ix2 k q) := by
  unfold k1_pay1
  simp only [matmul]
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k := funext fun a => Fin.ext (by
    match a with
    | ⟨0, _⟩ => exact blkdot_lhs_0 _ _
    | ⟨1, _⟩ => exact (blkdot_lhs_1 _ _).trans hk)
  have er : dot_S5000x32_S32x64_S5000x64_1_0_0_1_n_n.rhsIdx (ix2 p q) ((contrEquiv1 dot_S5000x32_S32x64_S5000x64_1_0_0_1_n_n 32 rfl rfl).symm k) = ix2 k q := funext fun a => Fin.ext (by
    match a with
    | ⟨0, _⟩ => exact (blkdot_rhs_0 _ _).trans hk
    | ⟨1, _⟩ => exact blkdot_rhs_1 _ _)
  rw [el, er, shapeCast_self]
  rfl

/-- The same at any index of the block. -/
theorem blkpay_apply (x0 : Vec Ideal S5000x32 .f32) (x1 : Vec Ideal S32x64 .f32) (j : S5000x64.Idx) :
    k1_pay1 (F := Ideal) x0 x1 j
      = ∑ k : Fin 32, max (x0 (ix2 ⟨(j 0).val, (j 0).isLt⟩ k)) (Ideal.ofBits .f32 0x00000000#32) * x1 (ix2 k ⟨(j 1).val, (j 1).isLt⟩) := by
  obtain ⟨p, q, rfl⟩ : ∃ (p : Fin 5000) (q : Fin 64), j = ix2 p q := ⟨j 0, j 1, eq_ix2 j⟩
  exact blkpay_ix x0 x1 p q

/-! ## From the blocks to the array -/

theorem zero_offsets : (![0, 0] : Fin 2 → Nat) = fun _ => 0 := funext fun a => by fin_cases a <;> rfl

/-- The block index of each window at each of the 20 points: the input and the output move down one row block per
    point, the weights stay. -/
theorem blk_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- An entry of the input block at point t is the input array's entry 5000 t rows further down. -/
theorem in_blk_apply (t : Fin cfg1.N) (y : S5000x32.Idx) (i : S100000x32.Idx)
    (h0 : (i 0).val = t.val * 5000 + (y 0).val) (h1 : (i 1).val = (y 1).val) :
    iblk1 (F := Ideal) V c 0 t y = V c main_v13 i := by
  obtain ⟨e0, e1, e2, e3, e4, e5⟩ := blk_index t
  show V c main_v13 (((cfg1.win 0).blk t).view.emb y) = V c main_v13 i
  congr 1
  funext a; apply Fin.ext
  match a with
  | ⟨0, _⟩ => show win1_0.index t (0 : Fin 2) * 5000 + 1 * (y 0).val = (i 0).val; omega
  | ⟨1, _⟩ => show win1_0.index t (1 : Fin 2) * 32 + 1 * (y 1).val = (i 1).val; omega

/-- The weights' block at every point is the weight matrix. -/
theorem w_blk_apply (t : Fin cfg1.N) (y : S32x64.Idx) (i : S32x64.Idx)
    (h0 : (i 0).val = (y 0).val) (h1 : (i 1).val = (y 1).val) :
    iblk1 (F := Ideal) V c 1 t y = V c main_arg8 i := by
  obtain ⟨e0, e1, e2, e3, e4, e5⟩ := blk_index t
  show V c main_arg8 (((cfg1.win 1).blk t).view.emb y) = V c main_arg8 i
  congr 1
  funext a; apply Fin.ext
  match a with
  | ⟨0, _⟩ => show win1_1.index t (0 : Fin 2) * 32 + 1 * (y 0).val = (i 0).val; omega
  | ⟨1, _⟩ => show win1_1.index t (1 : Fin 2) * 64 + 1 * (y 1).val = (i 1).val; omega

/-- What point t writes back is block t of the rectified product of the arrays the region read. -/
theorem flushed_eq (t : Fin cfg1.N) :
    (dat1 (F := Ideal) V c).flushed 2 t
      = ((cfg1.win 2).blk t).view.read (Elt Ideal) (reluProd (V c main_v13) (V c main_arg8)) := by
  show (cfg1.win 2).cut (grid1.coords t) ((dat1 (F := Ideal) V c).after 2 t) = _
  rw [after1_2]
  unfold out1_2
  rw [View.canon_unit_zero zero_offsets]
  simp only [View.ld_unit_zero (S := S5000x32) zero_offsets, View.ld_unit_zero (S := S32x64) zero_offsets]
  obtain ⟨e0, e1, e2, e3, e4, e5⟩ := blk_index t
  funext j
  show k1_pay1 (F := Ideal) (iblk1 (F := Ideal) V c 0 t) (iblk1 (F := Ideal) V c 1 t) j
    = reluProd (V c main_v13) (V c main_arg8) (((cfg1.win 2).blk t).view.emb j)
  refine (blkpay_apply (iblk1 (F := Ideal) V c 0 t) (iblk1 (F := Ideal) V c 1 t) j).trans ?_
  unfold reluProd
  refine Finset.sum_congr rfl fun k _ => ?_
  have hj0 : (j 0).val < 5000 := (j 0).isLt
  have c0 : ((((cfg1.win 2).blk t).view.emb j) 0).val = t.val * 5000 + (j 0).val := by
    show win1_2.index t (0 : Fin 2) * 5000 + 1 * (j 0).val = _; omega
  have c1 : ((((cfg1.win 2).blk t).view.emb j) 1).val = (j 1).val := by
    show win1_2.index t (1 : Fin 2) * 64 + 1 * (j 1).val = _; omega
  rw [in_blk_apply V c t (ix2 ⟨(j 0).val, (j 0).isLt⟩ k) (ix2 ⟨((((cfg1.win 2).blk t).view.emb j) 0).val, ((((cfg1.win 2).blk t).view.emb j) 0).isLt⟩ k) c0 rfl,
    w_blk_apply V c t (ix2 k ⟨(j 1).val, (j 1).isLt⟩) (ix2 k ⟨((((cfg1.win 2).blk t).view.emb j) 1).val, ((((cfg1.win 2).blk t).view.emb j) 1).isLt⟩) rfl c1]

/-- An index of the output array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v14).slice (win1_2.rect t)).set ↔ _
  rw [View.set_slice_whole, Rect.mem_set_unit]
  exact Iff.rfl

/-- Row r of the output array is written back at point r / 5000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  obtain ⟨t, ht⟩ : ∃ t : Fin cfg1.N, t.val = (i 0).val / 5000 := ⟨⟨(i 0).val / 5000, by show _ < grid1.N; omega⟩, rfl⟩
  obtain ⟨e0, e1, e2, e3, e4, e5⟩ := blk_index t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region the output array is the rectified product of the arrays the region read. -/
theorem arr_eq_reluProd : (dat1 (F := Ideal) V c).arrAt 2 cfg1.N = reluProd (V c main_v13) (V c main_arg8) :=
  (dat1 (F := Ideal) V c).arrAt_eq_of_cover 2 (reluProd (V c main_v13) (V c main_arg8)) (fun t _ => flushed_eq V c t) covered

end

/-! ## The reference's product at an entry -/

theorem refdot_lhs_0 (i : S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 0).val = (i 0).val := by
  unfold DotDims.lhsIdx
  rw [dif_neg (show ¬(0 : Fin S100000x32.rank) ∈ Cert.ReferenceIdeal.dot_S100000x32_S32x64_S100000x64_1_0_0_1_n_n.lhsBatch by decide), dif_pos (show (0 : Fin S100000x32.rank) ∈ Cert.ReferenceIdeal.dot_S100000x32_S32x64_S100000x64_1_0_0_1_n_n.lhsNonContracting by decide)]
  rfl
theorem refdot_lhs_1 (i : S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 1).val = (q ⟨0, by decide⟩).val :=
  Cert.ReferenceIdeal.dot_S100000x32_S32x64_S100000x64_1_0_0_1_n_n.lhsIdx_val_of_single rfl i q
theorem refdot_rhs_0 (i : S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 0).val = (q ⟨0, by decide⟩).val :=
  Cert.ReferenceIdeal.dot_S100000x32_S32x64_S100000x64_1_0_0_1_n_n.rhsIdx_val_of_single rfl i q
theorem refdot_rhs_1 (i : S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 1).val = (i 1).val := by
  unfold DotDims.rhsIdx
  rw [dif_neg (show ¬(1 : Fin S32x64.rank) ∈ Cert.ReferenceIdeal.dot_S100000x32_S32x64_S100000x64_1_0_0_1_n_n.rhsBatch by decide), dif_pos (show (1 : Fin S32x64.rank) ∈ Cert.ReferenceIdeal.dot_S100000x32_S32x64_S100000x64_1_0_0_1_n_n.rhsNonContracting by decide)]
  rfl

/-- The reference's matrix product at entry i: the sum over k of the left operand's (i 0, k) times the right's (k, i 1). -/
theorem refdot_apply (l : FVec Ideal S100000x32 .f32) (r : FVec Ideal S32x64 .f32) (i : S100000x64.Idx) :
    Host.dotGeneral (F := Ideal) (φ₁ := .f32) (φ₂ := .f32) Cert.ReferenceIdeal.dot_S100000x32_S32x64_S100000x64_1_0_0_1_n_n none l r i
      = ∑ k : Fin 32, l (ix2 ⟨(i 0).val, (i 0).isLt⟩ k) * r (ix2 k ⟨(i 1).val, (i 1).isLt⟩) := by
  simp only [Host.dotGeneral]
  rw [Ideal.dotGeneral_apply, ← Equiv.sum_comp (contrEquiv1 Cert.ReferenceIdeal.dot_S100000x32_S32x64_S100000x64_1_0_0_1_n_n 32 rfl rfl).symm]
  refine Finset.sum_congr rfl fun k _ => ?_
  have hk := contrEquiv1_symm_val Cert.ReferenceIdeal.dot_S100000x32_S32x64_S100000x64_1_0_0_1_n_n 32 rfl rfl k
  have el : Cert.ReferenceIdeal.dot_S100000x32_S32x64_S100000x64_1_0_0_1_n_n.lhsIdx i ((contrEquiv1 Cert.ReferenceIdeal.dot_S100000x32_S32x64_S100000x64_1_0_0_1_n_n 32 rfl rfl).symm k) = ix2 ⟨(i 0).val, (i 0).isLt⟩ k := funext fun a => Fin.ext (by
    match a with
    | ⟨0, _⟩ => exact refdot_lhs_0 _ _
    | ⟨1, _⟩ => exact (refdot_lhs_1 _ _).trans hk)
  have er : Cert.ReferenceIdeal.dot_S100000x32_S32x64_S100000x64_1_0_0_1_n_n.rhsIdx i ((contrEquiv1 Cert.ReferenceIdeal.dot_S100000x32_S32x64_S100000x64_1_0_0_1_n_n 32 rfl rfl).symm k) = ix2 k ⟨(i 1).val, (i 1).isLt⟩ := funext fun a => Fin.ext (by
    match a with
    | ⟨0, _⟩ => exact (refdot_rhs_0 _ _).trans hk
    | ⟨1, _⟩ => exact refdot_rhs_1 _ _)
  rw [el, er]
  rfl

/-- After region 1 its output array is `relu(h) @ W2` of the arrays the region read, in the reference's own operations. -/
theorem arr (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S100000x32_S32x64_S100000x64_1_0_0_1_n_n none
          (maximumf (F := Ideal) (V c main_v13) (Cert.ReferenceIdeal.Read.val_main_call0_v0 (F := Ideal))) (V c main_arg8) := by
  rw [arr_eq_reluProd V c]
  funext i
  refine Eq.trans ?_ (refdot_apply (maximumf (F := Ideal) (V c main_v13) (Cert.ReferenceIdeal.Read.val_main_call0_v0 (F := Ideal))) (V c main_arg8) i).symm
  unfold reluProd
  refine Finset.sum_congr rfl fun k _ => ?_
  rw [maximumf_apply, Cert.ReferenceIdeal.Read.val_main_call0_v0_apply, Cert.ReferenceIdeal.Read.val_main_call0_cst_apply]
  rfl

end Cert.KernelIdeal.Region1

end
-- ==== Proof.Region2.lean ====
/-
  Region 2: the 20 row blocks of relu(h2) times W3. After the region its output array is the reference's matrix product of
  the rectified input array with W3.
-/
import proofs.«422714_j21131239097136_1_alg».proof.Proof.KernelIdealFrame
import proofs.«422714_j21131239097136_1_alg».proof.Proof.RefRun
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Cert.KernelIdeal Cert.KernelIdeal.Gen

namespace Cert.KernelIdeal.Region2

open Idealize.ShloMosaic.ValueIdx

/-! ## The block product at an index -/

theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's payload at row `p`, column `q`: the sum over `k` of the positive part of the block's entry `(p, k)` times the
    weight's `(k, q)`. -/
theorem pay_apply (x : Vec Ideal S5000x64 .f32) (w : Vec Ideal S64x64 .f32) (p : Fin 5000) (q : Fin 64) :
    k2_pay1 (F := Ideal) x w (ix2 p q)
      = ∑ k : Fin 64, max (x (ix2 p k)) (Ideal.ofBits .f32 0x00000000#32) * w (ix2 k q) := by
  unfold k2_pay1
  refine (Ideal.matmul_constant_zero_apply dot_S5000x64_S64x64_S5000x64_1_0_0_1_n_n none _ _ (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]
  exact congrArg (fun y => max y (Ideal.ofBits .f32 0x00000000#32) * w (ix2 k q))
    (congrFun (shapeCast_self x shapeCasts_S5000x64_S5000x64) (ix2 p k))

/-! ## From the blocks to the array -/

theorem zero_offsets : (![0, 0] : Fin 2 → Nat) = fun _ => 0 := funext fun a => by fin_cases a <;> rfl

/-- The product of the positive part of the first array with the second: entry `(r, s)` is the sum over `k` of
    `max (X (r, k)) 0 * W (k, s)`. -/
def reluRowsTimes (X : Vec Ideal S100000x64 .f32) (W : Vec Ideal S64x64 .f32) : Vec Ideal S100000x64 .f32 :=
  fun i => ∑ k : Fin 64, max (X (ix2 (⟨(i 0).val, idx2_lt0 i⟩ : Fin 100000) k)) (Ideal.ofBits .f32 0x00000000#32)
    * W (ix2 k (⟨(i 1).val, idx2_lt1 i⟩ : Fin 64))

theorem reluRowsTimes_apply (X : Vec Ideal S100000x64 .f32) (W : Vec Ideal S64x64 .f32) (r : Fin 100000) (s : Fin 64) :
    reluRowsTimes X W (ix2 r s) = ∑ k : Fin 64, max (X (ix2 r k)) (Ideal.ofBits .f32 0x00000000#32) * W (ix2 k s) := rfl

/-- The printed index maps over the grid: the two row-blocked windows sit at row block `t`, column block 0; the weight's
    window at its one block. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of 5000 rows of `X` starting at row `5000 n`, rectified and multiplied by `W`, is the same rows of the product. -/
theorem block_apply (X : Vec Ideal S100000x64 .f32) (W : Vec Ideal S64x64 .f32)
    (xb : Vec Ideal S5000x64 .f32) (wb : Vec Ideal S64x64 .f32) (n : Nat)
    (hx : ∀ (p : Fin 5000) (k : Fin 64) (r : Fin 100000), r.val = n * 5000 + p.val → xb (ix2 p k) = X (ix2 r k))
    (hw : ∀ (k : Fin 64) (q : Fin 64), wb (ix2 k q) = W (ix2 k q))
    (j : S5000x64.Idx) (i : S100000x64.Idx) (hi0 : (i 0).val = n * 5000 + (j 0).val) (hi1 : (i 1).val = (j 1).val) :
    k2_pay1 (F := Ideal) xb wb j = reluRowsTimes X W i := by
  obtain ⟨p, q, rfl⟩ : ∃ (p : Fin 5000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [pay_apply, reluRowsTimes_apply]
  exact Finset.sum_congr rfl fun k _ => by rw [hx p k r hi0, hw k s]

variable (V : (c : Dev nD) → (b : Ref sig .tc) → Buf (Elt Ideal) ((c : Thread nD τ).loc b))

/-- What point `t` writes back is block `t` of the product of the rectified first input array with the second. -/
theorem written_back_eq (c : Dev nD) (t : Fin cfg2.N) :
    (dat2 (F := Ideal) V c).flushed 2 t
      = ((cfg2.win 2).blk t).view.read (Elt Ideal) (reluRowsTimes (V c main_v27) (V c main_arg9)) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S64x64) zero_offsets]
  obtain ⟨e00, e01, e10, e11, e20, e21⟩ := block_indices t
  funext j
  show k2_pay1 (F := Ideal) (iblk2 V c 0 t) (iblk2 V c 1 t) j
    = reluRowsTimes (V c main_v27) (V c main_arg9) (((cfg2.win 2).blk t).view.emb j)
  refine block_apply (V c main_v27) (V c main_arg9) (iblk2 V c 0 t) (iblk2 V c 1 t) t.val ?_ ?_ j
    (((cfg2.win 2).blk t).view.emb j) ?_ ?_
  · intro p k r hr
    show V c main_v27 (((cfg2.win 0).blk t).view.emb (ix2 p k)) = V c main_v27 (ix2 r k)
    refine congrArg _ (funext fun a => Fin.ext ?_)
    match a with
    | ⟨0, _⟩ => show win2_0.index t (0 : Fin 2) * 5000 + 1 * p.val = r.val; omega
    | ⟨1, _⟩ => show win2_0.index t (1 : Fin 2) * 64 + 1 * k.val = k.val; omega
  · intro k q
    show V c main_arg9 (((cfg2.win 1).blk t).view.emb (ix2 k q)) = V c main_arg9 (ix2 k q)
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega
  · show win2_2.index t (0 : Fin 2) * 5000 + 1 * (j 0).val = t.val * 5000 + (j 0).val; omega
  · show win2_2.index t (1 : Fin 2) * 64 + 1 * (j 1).val = (j 1).val; omega

/-- An index of the output array is in point `t`'s block iff each coordinate is in the block's range on its axis. -/
theorem mem_row_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v28).slice (win2_2.rect t)).set ↔ _
  rw [View.set_slice_whole, Rect.mem_set_unit]
  exact Iff.rfl

/-- Row `r` of the output array is in the block of point `r / 5000`. -/
theorem row_blocks_cover (i : S100000x64.Idx) :
    ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨e00, e01, e10, e11, e20, e21⟩ := block_indices t
  refine ⟨t, flush2_2 t, ?_⟩
  rw [mem_row_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array is the product of the rectified first input array with the second. -/
theorem arr_reluRowsTimes (c : Dev nD) :
    (dat2 (F := Ideal) V c).arrAt 2 cfg2.N = reluRowsTimes (V c main_v27) (V c main_arg9) :=
  (dat2 (F := Ideal) V c).arrAt_eq_of_cover 2 (reluRowsTimes (V c main_v27) (V c main_arg9))
    (fun t _ => written_back_eq V c t) row_blocks_cover

/-! ## The reference's side -/

/-- The reference's `dot_general` at row `r`, column `s`: the sum over `k` of the left operand's `(r, k)` times the right's `(k, s)`. -/
theorem ref_dot_apply (l : Vec Ideal S100000x64 .f32) (w : Vec Ideal S64x64 .f32) (r : Fin 100000) (s : Fin 64) :
    Host.dotGeneral (F := Ideal) (φ₁ := .f32) (φ₂ := .f32) Cert.ReferenceIdeal.dot_S100000x64_S64x64_S100000x64_1_0_0_1_n_n none l w (ix2 r s)
      = ∑ k : Fin 64, l (ix2 r k) * w (ix2 k s) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 r s) ((contrEquiv1 Cert.ReferenceIdeal.dot_S100000x64_S64x64_S100000x64_1_0_0_1_n_n 64 rfl rfl).symm k) = ix2 r k := funext fun a => Fin.ext (by
    match a with
    | ⟨0, _⟩ => exact Cert.ReferenceIdeal.Read.lhs_main_v30_0 _ _
    | ⟨1, _⟩ => exact (Cert.ReferenceIdeal.Read.lhs_main_v30_1 _ _).trans hk)
  have er : Cert.ReferenceIdeal.dot_S100000x64_S64x64_S100000x64_1_0_0_1_n_n.rhsIdx (ix2 r s) ((contrEquiv1 Cert.ReferenceIdeal.dot_S100000x64_S64x64_S100000x64_1_0_0_1_n_n 64 rfl rfl).symm k) = ix2 k s := funext fun a => Fin.ext (by
    match a with
    | ⟨0, _⟩ => exact (Cert.ReferenceIdeal.Read.rhs_main_v30_0 _ _).trans hk
    | ⟨1, _⟩ => exact Cert.ReferenceIdeal.Read.rhs_main_v30_1 _ _)
  rw [el, er]

/-- The product, entry by entry, is the reference's `dot_general` of the rectified first array with the second. -/
theorem reluRowsTimes_eq_ref (X : Vec Ideal S100000x64 .f32) (W : Vec Ideal S64x64 .f32) :
    reluRowsTimes X W
      = Host.dotGeneral (F := Ideal) (φ₁ := .f32) (φ₂ := .f32) Cert.ReferenceIdeal.dot_S100000x64_S64x64_S100000x64_1_0_0_1_n_n none
          (maximumf (F := Ideal) X (Cert.ReferenceIdeal.Read.val_main_call1_v0 (F := Ideal))) W := by
  funext i
  obtain ⟨r, s, rfl⟩ : ∃ (r : Fin 100000) (s : Fin 64), i = ix2 r s := ⟨i 0, i 1, eq_ix2 i⟩
  rw [reluRowsTimes_apply, ref_dot_apply]
  rfl

/-- After region 2 its output array is `relu(h) @ W3` of the arrays the region read, in the reference's own operations. -/
theorem arr (V : (c : Dev nD) → (b : Ref sig .tc) → Buf (Elt Ideal) ((c : Thread nD τ).loc b)) (c : Dev nD) :
    (dat2 (F := Ideal) V c).arrAt 2 cfg2.N
      = Host.dotGeneral (F := Ideal) (φ₁ := .f32) (φ₂ := .f32) Cert.ReferenceIdeal.dot_S100000x64_S64x64_S100000x64_1_0_0_1_n_n none
          (maximumf (F := Ideal) (V c main_v27) (Cert.ReferenceIdeal.Read.val_main_call1_v0 (F := Ideal))) (V c main_arg9) := by
  rw [arr_reluRowsTimes V c]
  exact reluRowsTimes_eq_ref (V c main_v27) (V c main_arg9)

end Cert.KernelIdeal.Region2

end
-- ==== Proof.LevelsA.lean ====
/-
  The kernel's program, boundary by boundary, through its three graph-convolution layers: at each boundary the buffer the
  next segment reads holds the reference's stage of the launch arguments. A region's output is the reference's matrix
  product of what it read (Region0–2); a host stretch between regions is the reference's own gather / multiply /
  scatter-add, operation for operation, applied to equal operands.
-/
import proofs.«422714_j21131239097136_1_alg».proof.Proof.KernelIdealFrame
import proofs.«422714_j21131239097136_1_alg».proof.Proof.Kept
import proofs.«422714_j21131239097136_1_alg».proof.Proof.RefRun
import proofs.«422714_j21131239097136_1_alg».proof.Proof.Region0
import proofs.«422714_j21131239097136_1_alg».proof.Proof.Region1
import proofs.«422714_j21131239097136_1_alg».proof.Proof.Region2

set_option quotPrecheck false
set_option maxRecDepth 200000
set_option maxHeartbeats 2000000

noncomputable section

namespace Cert.KernelIdeal.Levels

open Idealize.ShloMosaic Idealize.ShloMosaic.TcCoe Idealize.SL.Sem Idealize.ShloMosaic.ValueIdx
open Cert.KernelIdeal Cert.KernelIdeal.Gen
open Cert.ReferenceIdeal.Read (val_main_v0 val_main_v13 val_main_v15 val_main_v28 val_main_v30 val_main_v43 val_main_v50 val_main_v54 val_main_v64 val_main_v65)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-- After region 0: `x @ W1`. -/
theorem W1_v0 : W1 m ρ c (Proc.devRef .tc main_v0) = val_main_v0 (F := Ideal) a0 a7 :=
  (W1_arr m ρ c 2).trans (Region0.arr (V0 m ρ) c)

/-- After the first host stretch: the first layer's message passing of `x @ W1`. -/
theorem W2_v13 : W2 m ρ c (Proc.devRef .tc main_v13) = val_main_v13 (F := Ideal) a0 a1 a2 a3 a7 := by
  dsimp only [W2, hostOps1]
  after_results
  rw [Kept.W1_arg1 m ρ c, Kept.W1_arg2 m ρ c, Kept.W1_arg3 m ρ c, W1_v0 m ρ c]
  rfl

/-- After region 1: `relu(h1) @ W2`. -/
theorem W3_v14 : W3 m ρ c (Proc.devRef .tc main_v14) = val_main_v15 (F := Ideal) a0 a1 a2 a3 a7 a8 := by
  have h := (W3_arr m ρ c 2).trans (Region1.arr (V2 m ρ) c)
  dsimp only [V2] at h
  rw [W2_v13 m ρ c, Kept.W2_arg8 m ρ c] at h
  exact h

/-- After the second host stretch: the second layer's message passing. -/
theorem W4_v27 : W4 m ρ c (Proc.devRef .tc main_v27) = val_main_v28 (F := Ideal) a0 a1 a2 a3 a7 a8 := by
  dsimp only [W4, hostOps2]
  after_results
  rw [Kept.W3_arg1 m ρ c, Kept.W3_arg2 m ρ c, Kept.W3_arg3 m ρ c, W3_v14 m ρ c]
  rfl

/-- After region 2: `relu(h2) @ W3`. -/
theorem W5_v28 : W5 m ρ c (Proc.devRef .tc main_v28) = val_main_v30 (F := Ideal) a0 a1 a2 a3 a7 a8 a9 := by
  have h := (W5_arr m ρ c 2).trans (Region2.arr (V4 m ρ) c)
  dsimp only [V4] at h
  rw [W4_v27 m ρ c, Kept.W4_arg9 m ρ c] at h
  exact h

end Cert.KernelIdeal.Levels

end
-- ==== Proof.PoolSpec.lean ====
/-
  The pooled array as one function of the segment ids, the row weights and the node features: entry (g, f) is the sum over
  all 100000 rows n of [seg n = g] · (max (h n f) 0 · w n). Both the blocked one-hot matrix product of the kernel and the
  reference's scatter-add into 1024 rows compute this sum.
-/
import Idealize.ShloMosaic.Lib.ValueIdx
import Idealize.ShloMosaic.PureOps.Ideal

noncomputable section

namespace Cert.PoolSpec

open Idealize.ShloMosaic Idealize.ShloMosaic.ValueIdx

/-- Row n's term of entry (g, f): the row's rectified feature times its weight where the row's segment id is the word of g,
    zero elsewhere. -/
def term (x4 : (⟨1, ![100000]⟩ : Shape).Idx → BitVec 32) (x5 : (⟨1, ![100000]⟩ : Shape).Idx → EReal)
    (h : (⟨2, ![100000, 64]⟩ : Shape).Idx → EReal) (g : Fin 1024) (f : Fin 64) (n : Fin 100000) : EReal :=
  (if x4 (ix1 n) = BitVec.ofNat 32 g.val then (1 : EReal) else 0) * (max (h (ix2 n f)) 0 * x5 (ix1 n))

/-- The pooled array: the sum of the rows' terms. -/
def pooled (x4 : (⟨1, ![100000]⟩ : Shape).Idx → BitVec 32) (x5 : (⟨1, ![100000]⟩ : Shape).Idx → EReal)
    (h : (⟨2, ![100000, 64]⟩ : Shape).Idx → EReal) : (⟨2, ![1024, 64]⟩ : Shape).Idx → EReal :=
  fun i => ∑ n : Fin 100000, term x4 x5 h (i 0) (i 1) n

end Cert.PoolSpec

end
-- ==== Proof.Region3.lean ====
/-
  Region 3, the pooling: 100 grid points, each adding to the resident 1024 x 64 output block the product of the transposed
  one-hot matrix of its 1000 segment ids with its 1000 weighted, rectified feature rows; the first point starts from zero.
  After the region the output array is the sum over all 100000 rows (PoolSpec.pooled).
-/
import proofs.«422714_j21131239097136_1_alg».proof.Proof.KernelIdealFrame
import proofs.«422714_j21131239097136_1_alg».proof.Proof.PoolSpec
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Cert.KernelIdeal Cert.KernelIdeal.Gen

open Idealize.ShloMosaic.ValueIdx

namespace Cert.KernelIdeal.Region3

/-! ## What each case of the body leaves in the output block -/

section Pieces
variable {F : FTy → Type} [FloatOps F]

theorem hz : (![0, 0] : Fin 2 → Nat) = fun _ => 0 := funext fun a => by
  match a with | ⟨0, _⟩ => rfl | ⟨1, _⟩ => rfl

/-- A later point: the block holding `xo3` is left at the update of `xo3` by the point's three input blocks. -/
theorem out_B (c : Dev nD) (i : grid3.Coords) (a1 : Memref sig .tc .vmem S1000x1 .i32) (h1 : a1.IsWhole)
    (a2 : Memref sig .tc .vmem S1000x1 .f32) (h2 : a2.IsWhole) (a3 : Memref sig .tc .vmem S1000x64 .f32) (h3 : a3.IsWhole)
    (a4 : Memref sig .tc .vmem S1024x64 .f32) (h4 : a4.IsWhole) (hc : ¬cond3_0 i)
    (x0 : Vec F S1000x1 .i32) (x1 : Vec F S1000x1 .f32) (x2 : Vec F S1000x64 .f32) (xo3 : Vec F S1024x64 .f32) :
    out3_B_3 c i a1 h1 a2 h2 a3 h3 a4 h4 hc x0 x1 x2 xo3 = k3_pay2 x2 x1 x0 xo3 := by
  unfold out3_B_3
  rw [View.read_writes_eq_canon _ _ _ (cover3_B_3 c i a1 h1 a2 h2 a3 h3 a4 h4 hc x0 x1 x2 xo3)]
  unfold kernelRun3_B
  dsimp only
  sl_unfold_words
  rw [View.canon_unit_zero (S := S1024x64) hz]
  simp only [View.readAt_eq_ld, h1.read_unread, h2.read_unread, h3.read_unread, h4.read_unread,
    View.ld_unit_zero (S := S1000x1) hz, View.ld_unit_zero (S := S1000x64) hz, View.ld_unit_zero (S := S1024x64) hz]

/-- The first point: the block is reset to the zero block, read back, and left at the update of the zero block. -/
theorem out_A (c : Dev nD) (i : grid3.Coords) (a1 : Memref sig .tc .vmem S1000x1 .i32) (h1 : a1.IsWhole)
    (a2 : Memref sig .tc .vmem S1000x1 .f32) (h2 : a2.IsWhole) (a3 : Memref sig .tc .vmem S1000x64 .f32) (h3 : a3.IsWhole)
    (a4 : Memref sig .tc .vmem S1024x64 .f32) (h4 : a4.IsWhole) (hc : cond3_0 i)
    (x0 : Vec F S1000x1 .i32) (x1 : Vec F S1000x1 .f32) (x2 : Vec F S1000x64 .f32) :
    out3_A_3 c i a1 h1 a2 h2 a3 h3 a4 h4 hc x0 x1 x2 = k3_pay2 x2 x1 x0 (k3_pay1 (F := F)) := by
  unfold out3_A_3
  rw [View.read_writes_eq_canon _ _ _ (cover3_A_3 c i a1 h1 a2 h2 a3 h3 a4 h4 hc x0 x1 x2)]
  unfold kernelRun3_A
  dsimp only
  sl_unfold_words
  rw [View.canon_cons_unit_zero (S := S1024x64) hz, View.readCov_unit_zero (S := S1024x64) _ hz]
  simp only [View.readAt_eq_ld, h1.read_unread, h2.read_unread, h3.read_unread,
    View.ld_unit_zero (S := S1000x1) hz, View.ld_unit_zero (S := S1000x64) hz]

end Pieces

/-! ## The update at an entry: the block's entry plus the sum over the point's 1000 rows -/

section Payload

theorem lhs_dot_0 (i : S1024x64.Idx) (q : dot_S1000x1024_S1000x64_S1024x64_0_0_1_1_n_n.contr.Idx) :
    (dot_S1000x1024_S1000x64_S1024x64_0_0_1_1_n_n.lhsIdx i q 0).val = (q ⟨0, by decide⟩).val :=
  dot_S1000x1024_S1000x64_S1024x64_0_0_1_1_n_n.lhsIdx_val_of_single rfl i q
theorem lhs_dot_1 (i : S1024x64.Idx) (q : dot_S1000x1024_S1000x64_S1024x64_0_0_1_1_n_n.contr.Idx) :
    (dot_S1000x1024_S1000x64_S1024x64_0_0_1_1_n_n.lhsIdx i q 1).val = (i 0).val := by
  unfold DotDims.lhsIdx
  rw [dif_neg (show ¬(1 : Fin S1000x1024.rank) ∈ dot_S1000x1024_S1000x64_S1024x64_0_0_1_1_n_n.lhsBatch by decide), dif_pos (show (1 : Fin S1000x1024.rank) ∈ dot_S1000x1024_S1000x64_S1024x64_0_0_1_1_n_n.lhsNonContracting by decide)]
  rfl
theorem rhs_dot_0 (i : S1024x64.Idx) (q : dot_S1000x1024_S1000x64_S1024x64_0_0_1_1_n_n.contr.Idx) :
    (dot_S1000x1024_S1000x64_S1024x64_0_0_1_1_n_n.rhsIdx i q 0).val = (q ⟨0, by decide⟩).val :=
  dot_S1000x1024_S1000x64_S1024x64_0_0_1_1_n_n.rhsIdx_val_of_single rfl i q
theorem rhs_dot_1 (i : S1024x64.Idx) (q : dot_S1000x1024_S1000x64_S1024x64_0_0_1_1_n_n.contr.Idx) :
    (dot_S1000x1024_S1000x64_S1024x64_0_0_1_1_n_n.rhsIdx i q 1).val = (i 1).val := by
  unfold DotDims.rhsIdx
  rw [dif_neg (show ¬(1 : Fin S1000x64.rank) ∈ dot_S1000x1024_S1000x64_S1024x64_0_0_1_1_n_n.rhsBatch by decide), dif_pos (show (1 : Fin S1000x64.rank) ∈ dot_S1000x1024_S1000x64_S1024x64_0_0_1_1_n_n.rhsNonContracting by decide)]
  rfl

/-- Equality of two 32-bit words as a one-bit word. -/
theorem cmpi_eq_word (a b : BitVec 32) : IntOp.cmpi .eq a b = if a = b then 1#1 else 0#1 := by
  unfold IntOp.cmpi
  by_cases h : a = b
  · subst h; simp
  · have hb : (a == b) = false := by simpa using h
    rw [if_neg h, hb]; rfl

/-- The one-hot matrix at (r, g): 1 where row r's segment id is the word of g, 0 elsewhere. -/
theorem hot_apply (v12 : Vec Ideal S1000x1 .i32) (r : Fin 1000) (g : Fin 1024) :
    (truncf .bf16 (sitofp (F := Ideal) .f32 (extui 32 (cmpi .eq
        (broadcastTo S1000x1024 (shapeCast S1000x1 v12 shapeCasts_S1000x1_S1000x1) broadcasts_S1000x1_S1000x1024)
        (iota .tc S1000x1024 32 [1] iota_S1000x1024_d1_w32)) natLt_1_32)) bitsLt_bf16_f32 : FVec Ideal S1000x1024 .bf16) (ix2 r g)
      = if v12 (ix2 r (0 : Fin 1)) = BitVec.ofNat 32 g.val then (1 : EReal) else 0 := by
  rw [shapeCast_self]
  show FloatOps.sitofp (F := Ideal) .f32 ((IntOp.cmpi .eq (broadcastTo S1000x1024 v12 broadcasts_S1000x1_S1000x1024 (ix2 r g))
    (iota .tc S1000x1024 32 [1] iota_S1000x1024_d1_w32 (ix2 r g))).setWidth 32) = _
  rw [broadcastTo_apply v12 broadcasts_S1000x1_S1000x1024 (ix2 r g) (ix2 r (0 : Fin 1)) (fun a => by
      match a with
      | ⟨0, _⟩ => rfl
      | ⟨1, _⟩ => rfl),
    iota_single_apply, cmpi_eq_word]
  show FloatOps.sitofp (F := Ideal) .f32 ((if v12 (ix2 r (0 : Fin 1)) = BitVec.ofNat 32 g.val then 1#1 else 0#1).setWidth 32) = _
  by_cases h : v12 (ix2 r (0 : Fin 1)) = BitVec.ofNat 32 g.val
  · rw [if_pos h, if_pos h]
    show (((BitVec.setWidth 32 1#1).toInt : ℝ) : EReal) = 1
    rw [show (BitVec.setWidth 32 1#1).toInt = 1 from by decide]
    simp
  · rw [if_neg h, if_neg h]
    show (((BitVec.setWidth 32 0#1).toInt : ℝ) : EReal) = 0
    rw [show (BitVec.setWidth 32 0#1).toInt = 0 from by decide]
    simp

/-- The weighted, rectified features at (r, f). -/
theorem wtd_apply (v3 : Vec Ideal S1000x64 .f32) (v7 : Vec Ideal S1000x1 .f32) (r : Fin 1000) (f : Fin 64) :
    (truncf .bf16 (mulf (maximumf (shapeCast S1000x64 v3 shapeCasts_S1000x64_S1000x64)
        (broadcast S1000x64 (Scalar.ofBits (F := Ideal) .f32 0x00000000#32)))
      (broadcastTo S1000x64 (shapeCast S1000x1 v7 shapeCasts_S1000x1_S1000x1) broadcasts_S1000x1_S1000x64)) bitsLt_bf16_f32
        : FVec Ideal S1000x64 .bf16) (ix2 r f)
      = max (v3 (ix2 r f)) 0 * v7 (ix2 r (0 : Fin 1)) := by
  rw [shapeCast_self, shapeCast_self]
  show max (v3 (ix2 r f)) (Ideal.ofBits .f32 0x00000000#32) * broadcastTo S1000x64 v7 broadcasts_S1000x1_S1000x64 (ix2 r f) = _
  rw [Ideal.ofBits_zero_f32, broadcastTo_apply v7 broadcasts_S1000x1_S1000x64 (ix2 r f) (ix2 r (0 : Fin 1)) (fun a => by
      match a with
      | ⟨0, _⟩ => rfl
      | ⟨1, _⟩ => rfl)]

/-- The update of a block `v21` by the input blocks, at entry (g, f). -/
theorem pay2_apply (v3 : Vec Ideal S1000x64 .f32) (v7 : Vec Ideal S1000x1 .f32) (v12 : Vec Ideal S1000x1 .i32)
    (v21 : Vec Ideal S1024x64 .f32) (g : Fin 1024) (f : Fin 64) :
    k3_pay2 (F := Ideal) v3 v7 v12 v21 (ix2 g f)
      = v21 (ix2 g f) + ∑ r : Fin 1000, (if v12 (ix2 r (0 : Fin 1)) = BitVec.ofNat 32 g.val then (1 : EReal) else 0)
          * (max (v3 (ix2 r f)) 0 * v7 (ix2 r (0 : Fin 1))) := by
  unfold k3_pay2
  dsimp only
  refine (addf_apply _ _ _).trans ?_
  refine congrArg₂ (· + ·) (congrFun (shapeCast_self v21 _) _) ?_
  refine (Ideal.matmul_constant_zero_apply dot_S1000x1024_S1000x64_S1024x64_0_0_1_1_n_n none _ _ (ix2 g f)).trans ?_
  rw [← Equiv.sum_comp (contrEquiv1 dot_S1000x1024_S1000x64_S1024x64_0_0_1_1_n_n 1000 rfl rfl).symm]
  refine Finset.sum_congr rfl fun r _ => ?_
  have hk := contrEquiv1_symm_val dot_S1000x1024_S1000x64_S1024x64_0_0_1_1_n_n 1000 rfl rfl r
  have el : dot_S1000x1024_S1000x64_S1024x64_0_0_1_1_n_n.lhsIdx (ix2 g f) ((contrEquiv1 dot_S1000x1024_S1000x64_S1024x64_0_0_1_1_n_n 1000 rfl rfl).symm r) = ix2 r g := funext fun a => Fin.ext (by
    match a with
    | ⟨0, _⟩ => exact (lhs_dot_0 _ _).trans hk
    | ⟨1, _⟩ => exact lhs_dot_1 _ _)
  have er : dot_S1000x1024_S1000x64_S1024x64_0_0_1_1_n_n.rhsIdx (ix2 g f) ((contrEquiv1 dot_S1000x1024_S1000x64_S1024x64_0_0_1_1_n_n 1000 rfl rfl).symm r) = ix2 r f := funext fun a => Fin.ext (by
    match a with
    | ⟨0, _⟩ => exact (rhs_dot_0 _ _).trans hk
    | ⟨1, _⟩ => exact rhs_dot_1 _ _)
  rw [el, er]
  exact congrArg₂ (· * ·) (hot_apply v12 r g) (wtd_apply v3 v7 r f)

end Payload

/-! ## The input blocks of a point, read in the arrays -/

section Blocks
variable (V : (c : Dev nD) → (b : Ref sig .tc) → Buf (Elt Ideal) ((c : Thread nD τ).loc b))

/-- The three input windows' block indices at point t: row block t, column block 0. -/
theorem idx_facts : ∀ t : Fin cfg3.N, win3_0.index t 0 = t.val ∧ win3_0.index t 1 = 0 ∧ win3_1.index t 0 = t.val
    ∧ win3_1.index t 1 = 0 ∧ win3_2.index t 0 = t.val ∧ win3_2.index t 1 = 0 :=
  (by decide +kernel : ∀ t : Fin grid3.N, win3_0.index t 0 = t.val ∧ win3_0.index t 1 = 0 ∧ win3_1.index t 0 = t.val
    ∧ win3_1.index t 1 = 0 ∧ win3_2.index t 0 = t.val ∧ win3_2.index t 1 = 0)

/-- The segment ids, the weights and the features of point t's 1000 rows. -/
abbrev seg (c : Dev nD) (t : Fin cfg3.N) : Vec Ideal S1000x1 .i32 := iblk3 V c 0 t
abbrev wgt (c : Dev nD) (t : Fin cfg3.N) : Vec Ideal S1000x1 .f32 := iblk3 V c 1 t
abbrev fea (c : Dev nD) (t : Fin cfg3.N) : Vec Ideal S1000x64 .f32 := iblk3 V c 2 t

/-- Row r of point t's block is row 1000 t + r of the array. -/
theorem seg_apply (c : Dev nD) (t : Fin cfg3.N) (r : Fin 1000) (n : Fin 100000) (hn : n.val = 1000 * t.val + r.val) :
    seg V c t (ix2 r (0 : Fin 1)) = V c main_v42 (ix2 n (0 : Fin 1)) := by
  unfold seg iblk3
  rw [View.read_apply]
  show V c main_v42 _ = V c main_v42 _
  refine congrArg (V c main_v42) (funext fun a => Fin.ext ?_)
  match a with
  | ⟨0, _⟩ => show win3_0.index t 0 * 1000 + 1 * r.val = n.val; rw [(idx_facts t).1]; omega
  | ⟨1, _⟩ => show win3_0.index t 1 * 1 + 1 * 0 = 0; rw [(idx_facts t).2.1]

theorem wgt_apply (c : Dev nD) (t : Fin cfg3.N) (r : Fin 1000) (n : Fin 100000) (hn : n.val = 1000 * t.val + r.val) :
    wgt V c t (ix2 r (0 : Fin 1)) = V c main_v43 (ix2 n (0 : Fin 1)) := by
  unfold wgt iblk3
  rw [View.read_apply]
  show V c main_v43 _ = V c main_v43 _
  refine congrArg (V c main_v43) (funext fun a => Fin.ext ?_)
  match a with
  | ⟨0, _⟩ => show win3_1.index t 0 * 1000 + 1 * r.val = n.val; rw [(idx_facts t).2.2.1]; omega
  | ⟨1, _⟩ => show win3_1.index t 1 * 1 + 1 * 0 = 0; rw [(idx_facts t).2.2.2.1]

theorem fea_apply (c : Dev nD) (t : Fin cfg3.N) (r : Fin 1000) (f : Fin 64) (n : Fin 100000) (hn : n.val = 1000 * t.val + r.val) :
    fea V c t (ix2 r f) = V c main_v41 (ix2 n f) := by
  unfold fea iblk3
  rw [View.read_apply]
  show V c main_v41 _ = V c main_v41 _
  refine congrArg (V c main_v41) (funext fun a => Fin.ext ?_)
  match a with
  | ⟨0, _⟩ => show win3_2.index t 0 * 1000 + 1 * r.val = n.val; rw [(idx_facts t).2.2.2.2.1]; omega
  | ⟨1, _⟩ => show win3_2.index t 1 * 64 + 1 * f.val = f.val; rw [(idx_facts t).2.2.2.2.2]; omega

end Blocks

/-! ## The rows' terms along the natural numbers, and the running sum after each point -/

section Sum
variable (x4 : (⟨1, ![100000]⟩ : Shape).Idx → BitVec 32) (x5 : (⟨1, ![100000]⟩ : Shape).Idx → EReal)
  (h : (⟨2, ![100000, 64]⟩ : Shape).Idx → EReal)

/-- Row k's term of entry (g, f), zero past the last row. -/
def termN (g : Fin 1024) (f : Fin 64) (k : ℕ) : EReal :=
  if hk : k < 100000 then Cert.PoolSpec.term x4 x5 h g f ⟨k, hk⟩ else 0

/-- The pooled entry is the sum of the first 100000 of them. -/
theorem pooled_eq (g : Fin 1024) (f : Fin 64) :
    Cert.PoolSpec.pooled x4 x5 h (ix2 g f) = ∑ k ∈ Finset.range 100000, termN x4 x5 h g f k := by
  rw [Finset.sum_range]
  show ∑ n : Fin 100000, Cert.PoolSpec.term x4 x5 h g f n = _
  refine Finset.sum_congr rfl fun k _ => ?_
  unfold termN
  rw [dif_pos k.isLt]

end Sum

section Invariant
variable (V : (c : Dev nD) → (b : Ref sig .tc) → Buf (Elt Ideal) ((c : Thread nD τ).loc b))
  (x4 : (⟨1, ![100000]⟩ : Shape).Idx → BitVec 32) (x5 : (⟨1, ![100000]⟩ : Shape).Idx → EReal)

/-- What the first point leaves: the update of the zero block by its input blocks. -/
theorem outsAt_first (c : Dev nD) (t : Fin cfg3.N) (h0 : t.val % 100 = 0) :
    outsAt3 V c t.val t.isLt = k3_pay2 (F := Ideal) (fea V c t) (wgt V c t) (seg V c t) (k3_pay1 (F := Ideal)) :=
  (outsAt3_A V c t h0).trans (out_A (F := Ideal) c (grid3.coords t) (ms3_0 t) (hs3_0 t) (ms3_1 t) (hs3_1 t) (ms3_2 t) (hs3_2 t)
    (ms3_3 t) (hs3_3 t) ((hcond3_0 t).mpr h0) (iblk3 V c 0 t) (iblk3 V c 1 t) (iblk3 V c 2 t))

/-- What a later point leaves: the update, by its input blocks, of what the point before left. -/
theorem outsAt_later (c : Dev nD) (t : Fin cfg3.N) (h0 : ¬t.val % 100 = 0) :
    outsAt3 V c t.val t.isLt = k3_pay2 (F := Ideal) (fea V c t) (wgt V c t) (seg V c t)
      (outsAt3 V c (t.val - 1) (Nat.lt_of_le_of_lt (Nat.sub_le _ _) t.isLt)) :=
  (outsAt3_B V c t h0).trans (out_B (F := Ideal) c (grid3.coords t) (ms3_0 t) (hs3_0 t) (ms3_1 t) (hs3_1 t) (ms3_2 t) (hs3_2 t)
    (ms3_3 t) (hs3_3 t) (fun h => h0 ((hcond3_0 t).mp h)) (iblk3 V c 0 t) (iblk3 V c 1 t) (iblk3 V c 2 t)
    (outsAt3 V c (t.val - 1) (Nat.lt_of_le_of_lt (Nat.sub_le _ _) t.isLt)))

variable (c : Dev nD)
  (h42 : ∀ n : Fin 100000, V c main_v42 (ix2 n (0 : Fin 1)) = x4 (ix1 n))
  (h43 : ∀ n : Fin 100000, V c main_v43 (ix2 n (0 : Fin 1)) = x5 (ix1 n))

include h42 h43 in
/-- Point t's contribution to entry (g, f): the terms of its rows 1000 t, …, 1000 t + 999. -/
theorem contrib (t : Fin cfg3.N) (g : Fin 1024) (f : Fin 64) :
    ∑ r : Fin 1000, (if seg V c t (ix2 r (0 : Fin 1)) = BitVec.ofNat 32 g.val then (1 : EReal) else 0)
        * (max (fea V c t (ix2 r f)) 0 * wgt V c t (ix2 r (0 : Fin 1)))
      = ∑ r ∈ Finset.range 1000, termN x4 x5 (V c main_v41) g f (1000 * t.val + r) := by
  have hN : t.val < 100 := lt_of_lt_of_eq t.isLt (show cfg3.N = 100 from N_3)
  rw [Finset.sum_range]
  refine Finset.sum_congr rfl fun r _ => ?_
  have hlt : 1000 * t.val + r.val < 100000 := by have := r.isLt; omega
  unfold termN
  rw [dif_pos hlt]
  unfold Cert.PoolSpec.term
  rw [seg_apply V c t r ⟨_, hlt⟩ rfl, wgt_apply V c t r ⟨_, hlt⟩ rfl, fea_apply V c t r f ⟨_, hlt⟩ rfl, h42, h43]

include h42 h43 in
/-- After point n the output block holds, at (g, f), the sum of the terms of the rows below 1000 (n + 1). -/
theorem inv : ∀ (n : ℕ) (hn : n < cfg3.N) (g : Fin 1024) (f : Fin 64),
    outsAt3 V c n hn (ix2 g f) = ∑ k ∈ Finset.range (1000 * (n + 1)), termN x4 x5 (V c main_v41) g f k
  | 0, hn, g, f => by
    refine (congrFun (outsAt_first V c ⟨0, hn⟩ rfl) (ix2 g f)).trans ?_
    refine (pay2_apply (fea V c ⟨0, hn⟩) (wgt V c ⟨0, hn⟩) (seg V c ⟨0, hn⟩) (k3_pay1 (F := Ideal)) g f).trans ?_
    rw [contrib V x4 x5 c h42 h43 ⟨0, hn⟩ g f, show k3_pay1 (F := Ideal) (ix2 g f) = 0 from Ideal.ofBits_zero_f32, zero_add]
    show ∑ r ∈ Finset.range 1000, termN x4 x5 (V c main_v41) g f (1000 * 0 + r)
      = ∑ k ∈ Finset.range (1000 * (0 + 1)), termN x4 x5 (V c main_v41) g f k
    simp only [Nat.mul_zero, Nat.zero_add, Nat.mul_one]
  | n + 1, hn, g, f => by
    have hN : cfg3.N = 100 := N_3
    have hB : ¬(⟨n + 1, hn⟩ : Fin cfg3.N).val % 100 = 0 := by dsimp only; omega
    refine (congrFun (outsAt_later V c ⟨n + 1, hn⟩ hB) (ix2 g f)).trans ?_
    refine (pay2_apply (fea V c ⟨n + 1, hn⟩) (wgt V c ⟨n + 1, hn⟩) (seg V c ⟨n + 1, hn⟩)
      (outsAt3 V c ((⟨n + 1, hn⟩ : Fin cfg3.N).val - 1) (Nat.lt_of_le_of_lt (Nat.sub_le _ _) (⟨n + 1, hn⟩ : Fin cfg3.N).isLt)) g f).trans ?_
    rw [contrib V x4 x5 c h42 h43 ⟨n + 1, hn⟩ g f]
    show outsAt3 V c n _ (ix2 g f) + _ = _
    rw [inv n _ g f, show 1000 * (n + 1 + 1) = 1000 * (n + 1) + 1000 from by omega, Finset.sum_range_add]

end Invariant

/-! ## The one write-back, after the last point, and the array it leaves -/

section Final
variable (V : (c : Dev nD) → (b : Ref sig .tc) → Buf (Elt Ideal) ((c : Thread nD τ).loc b))
  (x4 : (⟨1, ![100000]⟩ : Shape).Idx → BitVec 32) (x5 : (⟨1, ![100000]⟩ : Shape).Idx → EReal) (c : Dev nD)
  (h42 : ∀ n : Fin 100000, V c main_v42 (ix2 n (0 : Fin 1)) = x4 (ix1 n))
  (h43 : ∀ n : Fin 100000, V c main_v43 (ix2 n (0 : Fin 1)) = x5 (ix1 n))

/-- The last point. -/
abbrev tLast : Fin cfg3.N := ⟨99, by decide⟩

include h42 h43 in
/-- After the last point the output block holds the pooled sum. -/
theorem last_eq : outsAt3 V c tLast.val tLast.isLt = Cert.PoolSpec.pooled x4 x5 (V c main_v41) := by
  funext i
  obtain ⟨g, f, rfl⟩ : ∃ (g : Fin 1024) (f : Fin 64), i = ix2 g f := ⟨i 0, i 1, eq_ix2 i⟩
  rw [pooled_eq]
  exact inv V x4 x5 c h42 h43 99 tLast.isLt g f

include h42 h43 in
/-- The write-back at the last point writes the pooled sum: block (0, 0) of the 1024 x 64 array is the array. -/
theorem flushed_eq (t : Fin cfg3.N) (hf : (cfg3.win 3).flush t = true) :
    (dat3 (F := Ideal) V c).flushed 3 t
      = ((cfg3.win 3).blk t).view.read (Elt Ideal) (Cert.PoolSpec.pooled x4 x5 (V c main_v41)) := by
  have hN : cfg3.N = 100 := N_3
  have h99 : t.val = 99 := by have := (flush3_3 t).mp hf; have := t.isLt; omega
  obtain rfl : t = tLast := Fin.ext h99
  show (cfg3.win 3).cut (grid3.coords tLast) ((dat3 (F := Ideal) V c).after 3 tLast) = _
  rw [after3_3, last_eq V x4 x5 c h42 h43]
  have hz' : (fun a => win3_3.index tLast a * main_v44.ty.shape.size a) = fun _ => 0 := funext fun a => by
    match a with
    | ⟨0, _⟩ => exact (by decide +kernel : win3_3.index tLast 0 * main_v44.ty.shape.size 0 = 0)
    | ⟨1, _⟩ => exact (by decide +kernel : win3_3.index tLast 1 * main_v44.ty.shape.size 1 = 0)
  exact (Memref.read_access_unit_zero (Elt Ideal) main_v44 hz' (fun a => by rw [congrFun hz' a]; simp)
    (Cert.PoolSpec.pooled x4 x5 (V c main_v41))).symm

include h42 h43 in
/-- So the output array ends holding the pooled sum: the last point's block covers it. -/
theorem final : (dat3 (F := Ideal) V c).arrAt 3 cfg3.N = Cert.PoolSpec.pooled x4 x5 (V c main_v41) :=
  (dat3 (F := Ideal) V c).arrAt_eq_of_cover 3 (Cert.PoolSpec.pooled x4 x5 (V c main_v41)) (flushed_eq V x4 x5 c h42 h43) fun i =>
    ⟨tLast, (flush3_3 tLast).mpr rfl, by
      show i ∈ ((View.whole main_v44).slice (win3_3.rect tLast)).set
      rw [View.set_slice_whole, Rect.mem_set_unit]
      intro a
      have h0 : (i 0 : Nat) < 1024 := (i 0).isLt
      have h1 : (i 1 : Nat) < 64 := (i 1).isLt
      match a with
      | ⟨0, _⟩ =>
        show win3_3.index tLast 0 * win3_3.size 0 ≤ (i 0 : Nat)
          ∧ (i 0 : Nat) < win3_3.index tLast 0 * win3_3.size 0 + win3_3.xsize (grid3.coords tLast) 0
        rw [show win3_3.index tLast 0 * win3_3.size 0 = 0 from by decide +kernel,
          show win3_3.xsize (grid3.coords tLast) 0 = 1024 from by decide +kernel]; omega
      | ⟨1, _⟩ =>
        show win3_3.index tLast 1 * win3_3.size 1 ≤ (i 1 : Nat)
          ∧ (i 1 : Nat) < win3_3.index tLast 1 * win3_3.size 1 + win3_3.xsize (grid3.coords tLast) 1
        rw [show win3_3.index tLast 1 * win3_3.size 1 = 0 from by decide +kernel,
          show win3_3.xsize (grid3.coords tLast) 1 = 64 from by decide +kernel]; omega⟩

end Final

/-- After region 3 its output array is the pooled sum of the arrays the region read: the segment ids and the weights as the
    columns of the two 100000 x 1 arrays. -/
theorem arr (V : (c : Dev nD) → (b : Ref sig .tc) → Buf (Elt Ideal) ((c : Thread nD τ).loc b)) (c : Dev nD)
    (x4 : (⟨1, ![100000]⟩ : Shape).Idx → BitVec 32) (x5 : (⟨1, ![100000]⟩ : Shape).Idx → EReal)
    (h42 : ∀ n : Fin 100000, V c main_v42 (ix2 n (0 : Fin 1)) = x4 (ix1 n))
    (h43 : ∀ n : Fin 100000, V c main_v43 (ix2 n (0 : Fin 1)) = x5 (ix1 n)) :
    (dat3 (F := Ideal) V c).arrAt 3 cfg3.N = Cert.PoolSpec.pooled x4 x5 (V c main_v41) := by
  exact final V x4 x5 c h42 h43

end Cert.KernelIdeal.Region3

end
-- ==== Proof.PoolMath.lean ====
/-
  The reference's pooling stage — a scatter-add of the 100000 weighted, rectified feature rows into 1024 zero rows at the
  rows' segment ids, out-of-range ids dropped — is the pooled sum (PoolSpec.pooled).
-/
import proofs.«422714_j21131239097136_1_alg».proof.Proof.RefRun
import proofs.«422714_j21131239097136_1_alg».proof.Proof.PoolSpec
import Idealize.ShloMosaic.Lib.ValueIdx
import Idealize.ShloMosaic.PureOps.Ideal.Laws

noncomputable section

open Idealize.ShloMosaic Idealize.ShloMosaic.TcCoe Idealize.ShloMosaic.ValueIdx

namespace Cert.ReferenceIdeal.PoolMath

open Cert.ReferenceIdeal Cert.ReferenceIdeal.Read

private abbrev D : ScatterDims S1024x64 S100000x1 S100000x64 := scatter_S1024x64_S100000x1_S100000x64_1_0_0_1

/-- The index-array entry an update row reads its start from: row `a`, column 0. -/
private theorem siIdx_eq (a : Fin 100000) (b : Fin 64) (c : Fin D.scatterDimsToOperandDims.length) :
    D.siIdx (ix2 a b) c = ix2 a (0 : Fin 1) := by
  funext e
  match e with
  | ⟨0, _⟩ => rfl
  | ⟨1, _⟩ =>
    apply Fin.ext
    have := c.isLt
    show c.val = 0
    have h1 : D.scatterDimsToOperandDims.length = 1 := rfl
    omega

private theorem start0 (a : Fin 100000) (b : Fin 64) (idx : IVec S100000x1 32) :
    D.start (ix2 a b) idx 0 = (idx (ix2 a (0 : Fin 1))).toInt := by
  unfold ScatterDims.start
  rw [dif_pos (show (0 : Fin S1024x64.rank) ∈ D.scatterDimsToOperandDims by decide), siIdx_eq]

private theorem start1 (a : Fin 100000) (b : Fin 64) (idx : IVec S100000x1 32) :
    D.start (ix2 a b) idx 1 = 0 := by
  unfold ScatterDims.start
  rw [dif_neg (show ¬ (1 : Fin S1024x64.rank) ∈ D.scatterDimsToOperandDims by decide)]

private theorem window0 (a : Fin 100000) (b : Fin 64) : D.window (ix2 a b) 0 = 0 := by
  unfold ScatterDims.window
  rw [dif_neg (show ¬ (0 : Fin S1024x64.rank) ∈ D.sKept by decide)]

private theorem window1 (a : Fin 100000) (b : Fin 64) : D.window (ix2 a b) 1 = b.val := by
  unfold ScatterDims.window
  rw [dif_pos (show (1 : Fin S1024x64.rank) ∈ D.sKept by decide)]
  rfl

/-- Where an update element lands: update `(a, b)` lands on operand element `(g, f)` exactly when row `a`'s index word,
    read signed, is `g`, and `b = f`. -/
private theorem resultIdx_iff (a : Fin 100000) (b : Fin 64) (idx : IVec S100000x1 32) (g : Fin 1024) (f : Fin 64) :
    D.resultIdx? (ix2 a b) idx = some (ix2 g f) ↔ (idx (ix2 a (0 : Fin 1))).toInt = (g.val : Int) ∧ b = f := by
  have hs0 : S1024x64.size 0 = 1024 := rfl
  have hs1 : S1024x64.size 1 = 64 := rfl
  have e0 := start0 a b idx
  have e1 := start1 a b idx
  have w0 := window0 a b
  have w1 := window1 a b
  unfold ScatterDims.resultIdx?
  constructor
  · intro hres
    by_cases hc : ∀ e, 0 ≤ D.start (ix2 a b) idx e + D.window (ix2 a b) e ∧ D.start (ix2 a b) idx e + D.window (ix2 a b) e < S1024x64.size e
    · rw [dif_pos hc] at hres
      have hfun := Option.some.inj hres
      have c0 := congrArg Fin.val (congrFun hfun 0)
      have c1 := congrArg Fin.val (congrFun hfun 1)
      have hc0 := hc 0
      have hc1 := hc 1
      change (D.start (ix2 a b) idx 0 + D.window (ix2 a b) 0).toNat = g.val at c0
      change (D.start (ix2 a b) idx 1 + D.window (ix2 a b) 1).toNat = f.val at c1
      rw [e0, w0] at c0 hc0
      rw [e1, w1] at c1 hc1
      refine ⟨by omega, Fin.ext (by omega)⟩
    · rw [dif_neg hc] at hres
      exact absurd hres (by simp)
  · rintro ⟨h0, rfl⟩
    have hg := g.isLt
    have hb := b.isLt
    have hc : ∀ e, 0 ≤ D.start (ix2 a b) idx e + D.window (ix2 a b) e ∧ D.start (ix2 a b) idx e + D.window (ix2 a b) e < S1024x64.size e := by
      intro e
      match e with
      | ⟨0, _⟩ =>
        change 0 ≤ D.start (ix2 a b) idx 0 + D.window (ix2 a b) 0 ∧ D.start (ix2 a b) idx 0 + D.window (ix2 a b) 0 < S1024x64.size 0
        rw [e0, w0, hs0]; omega
      | ⟨1, _⟩ =>
        change 0 ≤ D.start (ix2 a b) idx 1 + D.window (ix2 a b) 1 ∧ D.start (ix2 a b) idx 1 + D.window (ix2 a b) 1 < S1024x64.size 1
        rw [e1, w1, hs1]; omega
    rw [dif_pos hc]
    congr 1
    funext e
    match e with
    | ⟨0, _⟩ =>
      apply Fin.ext
      change (D.start (ix2 a b) idx 0 + D.window (ix2 a b) 0).toNat = g.val
      rw [e0, w0]; omega
    | ⟨1, _⟩ =>
      apply Fin.ext
      change (D.start (ix2 a b) idx 1 + D.window (ix2 a b) 1).toNat = b.val
      rw [e1, w1]; omega

/-- A 32-bit word read signed is a number below 1024 exactly when it is that number's word. -/
private theorem toInt_eq_iff (s : BitVec 32) (g : Nat) (hg : g < 1024) : s.toInt = (g : Int) ↔ s = BitVec.ofNat 32 g := by
  have hg' : (BitVec.ofNat 32 g).toInt = (g : Int) := by
    rw [BitVec.toInt_eq_toNat_cond, BitVec.toNat_ofNat]
    omega
  constructor
  · intro h
    exact BitVec.toInt_inj.1 (h.trans hg'.symm)
  · rintro rfl
    exact hg'

/-- The scatter-add of this record at an element: the operand's element plus, over the rows whose index word is the
    element's row number, the update at that row and the element's column. -/
private theorem scatterAdd_apply (z : S1024x64.Idx → EReal) (idx : IVec S100000x1 32) (upd : S100000x64.Idx → EReal)
    (g : Fin 1024) (f : Fin 64) :
    Ideal.hostScatterAdd D z idx upd (ix2 g f)
      = z (ix2 g f) + ∑ n : Fin 100000, if idx (ix2 n (0 : Fin 1)) = BitVec.ofNat 32 g.val then upd (ix2 n f) else 0 := by
  unfold Ideal.hostScatterAdd
  refine congrArg (fun t => z (ix2 g f) + t) ?_
  rw [Finset.sum_filter, sum_idx2]
  refine Finset.sum_congr rfl fun n _ => ?_
  simp only [resultIdx_iff, toInt_eq_iff _ _ g.isLt]
  by_cases hw : idx (ix2 n (0 : Fin 1)) = BitVec.ofNat 32 g.val
  · simp only [hw, true_and, if_true]
    rw [Finset.sum_ite_eq' Finset.univ f (fun b => upd (ix2 n b)), if_pos (Finset.mem_univ f)]
  · simp only [hw, false_and, if_false, Finset.sum_const_zero]

/-- The scatter-add of `relu(h) · w` at the segment ids is the pooled sum. -/
theorem scatter_eq (x4 : (⟨S100000, .i32⟩ : BufTy).Contents (Elt Ideal)) (x5 : (⟨S100000, .f32⟩ : BufTy).Contents (Elt Ideal))
    (h : (⟨S100000x64, .f32⟩ : BufTy).Contents (Elt Ideal)) :
    Host.scatterAdd (F := Ideal) (φ := .f32) scatter_S1024x64_S100000x1_S100000x64_1_0_0_1 (val_main_v48 (F := Ideal)) (val_main_v49 (F := Ideal) x4)
        (mulf (F := Ideal) (maximumf (F := Ideal) h (val_main_call2_v0 (F := Ideal))) (val_main_v46 (F := Ideal) x5))
      = Cert.PoolSpec.pooled x4 x5 h := by
  funext i
  obtain ⟨g, f, rfl⟩ : ∃ (g : Fin 1024) (f : Fin 64), i = ix2 g f := ⟨i 0, i 1, eq_ix2 i⟩
  refine (scatterAdd_apply (val_main_v48 (F := Ideal)) (val_main_v49 (F := Ideal) x4)
    (mulf (F := Ideal) (maximumf (F := Ideal) h (val_main_call2_v0 (F := Ideal))) (val_main_v46 (F := Ideal) x5)) g f).trans ?_
  rw [val_main_v48_apply, val_main_cst_7_apply, Ideal.ofBits_def, Ideal.ofBits_zero_f32, zero_add]
  unfold Cert.PoolSpec.pooled
  refine Finset.sum_congr rfl fun n _ => ?_
  have hidx : idx_main_v49 (ix2 n (0 : Fin 1)) = ix1 n := by
    funext e; match e with | ⟨0, _⟩ => rfl
  have hidx46 : idx_main_v45 (idx_main_v46 (ix2 n f)) = ix1 n := by
    funext e; match e with | ⟨0, _⟩ => rfl
  rw [val_main_v49_apply, hidx, mulf_apply, maximumf_apply, val_main_call2_v0_apply, val_main_call2_cst_apply,
    Ideal.ofBits_def, Ideal.ofBits_zero_f32, val_main_v46_apply, val_main_v45_apply, hidx46]
  unfold Cert.PoolSpec.term
  rw [ite_mul, one_mul, zero_mul]

end Cert.ReferenceIdeal.PoolMath

end
-- ==== Proof.LevelsB.lean ====
/-
  The kernel's program through its pooling: the third layer's message passing, the segment ids and row weights reshaped to
  columns, the pooling region, and the labels and bias reshaped for the last region. The pooling region's output is the
  pooled sum of what it read (Region3), which is the reference's scatter-add into 1024 rows (PoolMath).
-/
import proofs.«422714_j21131239097136_1_alg».proof.Proof.KernelIdealFrame
import proofs.«422714_j21131239097136_1_alg».proof.Proof.Kept
import proofs.«422714_j21131239097136_1_alg».proof.Proof.RefRun
import proofs.«422714_j21131239097136_1_alg».proof.Proof.LevelsA
import proofs.«422714_j21131239097136_1_alg».proof.Proof.Region3
import proofs.«422714_j21131239097136_1_alg».proof.Proof.PoolMath
import Idealize.ShloMosaic.Lib.ValueLayout

set_option quotPrecheck false
set_option maxRecDepth 200000
set_option maxHeartbeats 2000000

noncomputable section

namespace Cert.KernelIdeal.Levels

open Idealize.ShloMosaic Idealize.ShloMosaic.TcCoe Idealize.SL.Sem Idealize.ShloMosaic.ValueIdx
open Cert.KernelIdeal Cert.KernelIdeal.Gen
open Cert.ReferenceIdeal.Read (val_main_v0 val_main_v13 val_main_v15 val_main_v28 val_main_v30 val_main_v43 val_main_v50 val_main_v54 val_main_v64 val_main_v65)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-- A rank-1 array cast to a column reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- After the third host stretch: the third layer's message passing. -/
theorem W6_v41 : W6 m ρ c (Proc.devRef .tc main_v41) = val_main_v43 (F := Ideal) a0 a1 a2 a3 a7 a8 a9 := by
  dsimp only [W6, hostOps3]
  after_results
  rw [Kept.W5_arg1 m ρ c, Kept.W5_arg2 m ρ c, Kept.W5_arg3 m ρ c, W5_v28 m ρ c]
  rfl

/-- After the third host stretch the segment ids sit in a column: entry `(n, 0)` is id `n`. -/
theorem W6_v42 (n : Fin 100000) : W6 m ρ c (Proc.devRef .tc main_v42) (ix2 n (0 : Fin 1)) = a4 (ix1 n) := by
  dsimp only [W6, hostOps3]
  after_results
  rw [Kept.W5_arg4 m ρ c]
  exact shapeCast_a_a1_apply _ _ n 0

/-- … and the row weights likewise. -/
theorem W6_v43 (n : Fin 100000) : W6 m ρ c (Proc.devRef .tc main_v43) (ix2 n (0 : Fin 1)) = a5 (ix1 n) := by
  dsimp only [W6, hostOps3]
  after_results
  rw [Kept.W5_arg5 m ρ c]
  exact shapeCast_a_a1_apply _ _ n 0

/-- After the pooling region: the reference's pooled stage. -/
theorem W7_v44 : W7 m ρ c (Proc.devRef .tc main_v44) = val_main_v50 (F := Ideal) a0 a1 a2 a3 a4 a5 a7 a8 a9 := by
  have h := (W7_arr m ρ c 3).trans (Region3.arr (V6 m ρ) c a4 a5 (W6_v42 m ρ c) (W6_v43 m ρ c))
  dsimp only [V6] at h
  rw [W6_v41 m ρ c] at h
  exact h.trans (Cert.ReferenceIdeal.PoolMath.scatter_eq a4 a5 (val_main_v43 (F := Ideal) a0 a1 a2 a3 a7 a8 a9)).symm

/-- The fourth host stretch only reshapes the labels and the bias: the pooled array stays. -/
theorem W8_v44 : W8 m ρ c (Proc.devRef .tc main_v44) = val_main_v50 (F := Ideal) a0 a1 a2 a3 a4 a5 a7 a8 a9 :=
  (by host_keeps : W8 m ρ c (Proc.devRef .tc main_v44) = W7 m ρ c (Proc.devRef .tc main_v44)).trans (W7_v44 m ρ c)

/-- The labels as a column: entry `(g, 0)` is label `g`. -/
theorem W8_v45 (g : Fin 1024) : W8 m ρ c (Proc.devRef .tc main_v45) (ix2 g (0 : Fin 1)) = a6 (ix1 g) := by
  dsimp only [W8, hostOps4]
  after_results
  rw [Kept.W7_arg6 m ρ c]
  exact shapeCast_a_a1_apply _ _ g 0

/-- The bias as a row: entry `(0, j)` is bias `j`. -/
theorem W8_v46 (j : Fin 104) : W8 m ρ c (Proc.devRef .tc main_v46) (ix2 (0 : Fin 1) j) = a11 (ix1 j) := by
  dsimp only [W8, hostOps4]
  after_results
  rw [Kept.W7_arg11 m ρ c]
  exact shapeCast_a_1a_apply _ _ 0 j

end Cert.KernelIdeal.Levels

end
-- ==== Proof.CeMath.lean ====
/-
  The kernel's cross-entropy arithmetic on a logits block — row maximum, shift, exponentials, row sum, logarithm, the one-hot
  product, the row sums negated, their sum over the rows divided by 1024 — is the reference's `Stage.ceOfLogits` of the same
  logits and labels: the lane reductions are the host's reductions at Ideal, `0 - s = -s`, and the one-hot factors agree.
-/
import proofs.«422714_j21131239097136_1_alg».proof.Proof.Gen.KernelIdeal.Skeleton
import proofs.«422714_j21131239097136_1_alg».proof.Proof.RefRun
import proofs.«422714_j21131239097136_1_alg».proof.Proof.Stages
import Idealize.ShloMosaic.Lib.KernelVsHost
import Idealize.ShloMosaic.Lib.IdealHost
import Idealize.ShloMosaic.Lib.ValueIdxRank1

noncomputable section

open Idealize.ShloMosaic Idealize.ShloMosaic.TcCoe Idealize.ShloMosaic.ValueIdx

namespace Cert.KernelIdeal.CeMath

open Cert.KernelIdeal Cert.KernelIdeal.Gen

section Layout
variable {α : Type}

/-- A vector cast to a column is the vector broadcast along axis 0 of the column. -/
private theorem shapeCast_col_eq_broadcastInDim {a : Nat} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  have h1 : (i 1).val = 0 := by have := (i 1).isLt; have e : (i 1).val < 1 := this; omega
  have e1 := shapeCast_apply x h i (ix1 (i 0 : Fin a)) (by
    rw [Shape.rowMajor_val_one, Shape.rowMajor_val_two]; show (i 0).val = (i 0).val * 1 + (i 1).val; omega)
  have e2 := broadcastInDim_apply ![0] hd x i (ix1 (i 0 : Fin a)) (by
    intro b
    match b with
    | ⟨0, _⟩ =>
      show (i 0).val = if a = 1 then 0 else (i 0).val
      split
      · have := (i 0).isLt; have e : (i 0).val < a := this; omega
      · rfl)
  exact e1.trans e2.symm

/-- A column broadcast over the row: the lane broadcast is the host's broadcast along both axes. -/
private theorem broadcastTo_col_eq_broadcastInDim {a b : Nat} (y : (⟨2, ![a, 1]⟩ : Shape).Idx → α)
    (h : (⟨2, ![a, 1]⟩ : Shape).Broadcasts ⟨2, ![a, b]⟩) (hd : (⟨2, ![a, 1]⟩ : Shape).BroadcastsInDim ⟨2, ![a, b]⟩ ![0, 1]) :
    broadcastTo ⟨2, ![a, b]⟩ y h = broadcastInDim ⟨2, ![a, b]⟩ ![0, 1] hd y := by
  funext i
  have e1 := broadcastTo_apply y h i (ix2 (i 0 : Fin a) (0 : Fin 1)) (by
    intro c
    match c with
    | ⟨0, _⟩ =>
      show (i 0).val = if a = 1 then 0 else (i 0).val
      split
      · have := (i 0).isLt; have e : (i 0).val < a := this; omega
      · rfl
    | ⟨1, _⟩ => show 0 = if (1 : Nat) = 1 then 0 else _; rw [if_pos rfl])
  have e2 := broadcastInDim_apply ![0, 1] hd y i (ix2 (i 0 : Fin a) (0 : Fin 1)) (by
    intro c
    match c with
    | ⟨0, _⟩ =>
      show (i 0).val = if a = 1 then 0 else (i 0).val
      split
      · have := (i 0).isLt; have e : (i 0).val < a := this; omega
      · rfl
    | ⟨1, _⟩ => show 0 = if (1 : Nat) = 1 then 0 else _; rw [if_pos rfl])
  exact e1.trans e2.symm

/-- A cast to the same shape is the identity. -/
private theorem shapeCast_self {s : Shape} (x : s.Idx → α) (h : s.ShapeCasts s) : shapeCast s x h = x := by
  funext i
  exact shapeCast_apply x h i i rfl

end Layout

/-- The word of −∞ reads as the least extended real. -/
private theorem rowMax_eq_negInf : Ideal.ofBits .f32 0xFF800000#32 = (⊥ : EReal) := by
  simp [Ideal.ofBits, Ideal.ieee]

/-- The row maxima: the lane maximum-reduction from −∞ is the host's maximum with −∞ of its maximum-reduction from −∞. -/
theorem rowMax_eq (lg : FVec Ideal S1024x104 .f32) :
    multiReduction .maximumf [1] S1024 lg 0xFF800000#32 reduces_S1024x104_S1024 (.inl rfl) rfl
      = Cert.ReferenceIdeal.Stage.rowMax (F := Ideal) lg := by
  funext j
  refine (Ideal.multiReduction_maximumf_single lg 0xFF800000#32 reduces_S1024x104_S1024 (.inl rfl) rfl j).trans ?_
  unfold Cert.ReferenceIdeal.Stage.rowMax
  rw [maximumf_apply, Cert.ReferenceIdeal.Read.val_main_call4_v1_apply, Cert.ReferenceIdeal.Read.val_main_call4_cst_0_apply,
    Host.reduce_eq_fold_single FloatOps.maximumf lg _ _ reduces_S1024x104_S1024 _ j,
    Cert.ReferenceIdeal.Read.val_main_call4_cst_apply, Ideal.ofBits_def, rowMax_eq_negInf]
  exact (max_eq_right bot_le).symm

/-- The label column broadcast over the row reads, at (g, l), row g's label. -/
private theorem oneHot_eq_label (v21 : Vec Ideal S1024x1 .i32) (g : Fin 1024) (l : Fin 104) :
    broadcastTo S1024x104 (shapeCast S1024x1 v21 shapeCasts_S1024x1_S1024x1) broadcasts_S1024x1_S1024x104 (ix2 g l)
      = v21 (ix2 g (0 : Fin 1)) :=
  (broadcastTo_apply (shapeCast S1024x1 v21 shapeCasts_S1024x1_S1024x1) broadcasts_S1024x1_S1024x104 (ix2 g l) (ix2 g (0 : Fin 1))
    (fun a => by
      match a with
      | ⟨0, _⟩ => rfl
      | ⟨1, _⟩ => rfl)).trans
    (shapeCast_apply v21 shapeCasts_S1024x1_S1024x1 (ix2 g (0 : Fin 1)) (ix2 g (0 : Fin 1)) rfl)

/-- The reference's label array at (g, l) is label g. -/
private theorem oneHot_eq_ref_label (x6 : (⟨Cert.ReferenceIdeal.S1024, .i32⟩ : BufTy).Contents (Elt Ideal)) (g : Fin 1024) (l : Fin 104) :
    Cert.ReferenceIdeal.Read.val_main_call3_v2 (F := Ideal) x6 (ix2 g l) = x6 (ix1 g) := by
  rw [Cert.ReferenceIdeal.Read.val_main_call3_v2_apply, Cert.ReferenceIdeal.Read.val_main_call3_v0_apply]
  exact congrArg x6 (funext fun a => by
    match a with
    | ⟨0, _⟩ => rfl)

/-- The reference's lane numbers at (g, l) are the word of l. -/
private theorem oneHot_eq_ref_lane (g : Fin 1024) (l : Fin 104) :
    Cert.ReferenceIdeal.Read.val_main_call3_v3 (F := Ideal) (ix2 g l) = BitVec.ofNat 32 l.val := by
  rw [Cert.ReferenceIdeal.Read.val_main_call3_v3_apply, Cert.ReferenceIdeal.Read.val_main_call3_v1_apply]

/-- The one-hot factor: the compare bit widened and converted signed is the host's bit converted unsigned, and the compared
    arrays agree: the label column over the row, and the lane number. -/
theorem oneHot_eq (v21 : Vec Ideal S1024x1 .i32) (x6 : (⟨Cert.ReferenceIdeal.S1024, .i32⟩ : BufTy).Contents (Elt Ideal))
    (h21 : ∀ g : Fin 1024, v21 (ix2 g (0 : Fin 1)) = x6 (ix1 g)) :
    (sitofp .f32 (extui 32 (cmpi .eq (broadcastTo S1024x104 (shapeCast S1024x1 v21 shapeCasts_S1024x1_S1024x1) broadcasts_S1024x1_S1024x104)
        (iota .tc S1024x104 32 [1] iota_S1024x104_d1_w32)) natLt_1_32) : FVec Ideal S1024x104 .f32)
      = Cert.ReferenceIdeal.Read.val_main_v55 (F := Ideal) x6 := by
  rw [sitofp_extui_eq_uitofp]
  show _ = uitofp .f32 (Cert.ReferenceIdeal.Read.val_main_call3_v4 (F := Ideal) x6)
  refine congrArg (uitofp (F := Ideal) .f32) (funext fun i => ?_)
  obtain ⟨g, l, rfl⟩ : ∃ (g : Fin 1024) (l : Fin 104), i = ix2 g l := ⟨i 0, i 1, eq_ix2 i⟩
  show IntOp.cmpi .eq (broadcastTo S1024x104 (shapeCast S1024x1 v21 shapeCasts_S1024x1_S1024x1) broadcasts_S1024x1_S1024x104 (ix2 g l))
      (iota .tc S1024x104 32 [1] iota_S1024x104_d1_w32 (ix2 g l))
    = IntOp.cmpi .eq (Cert.ReferenceIdeal.Read.val_main_call3_v2 (F := Ideal) x6 (ix2 g l))
      (Cert.ReferenceIdeal.Read.val_main_call3_v3 (F := Ideal) (ix2 g l))
  rw [oneHot_eq_label, h21, iota_single_apply, oneHot_eq_ref_label, oneHot_eq_ref_lane]

/-- The mean: the negated row sums, as a column summed over the rows and divided by 1024, is the host's sum of the negated
    vector divided by 1024. -/
theorem mean_eq (R : FVec Ideal S1024 .f32) (i : S1x1.Idx) :
    divf (shapeCast S1x1 (multiReduction .add [0] S1 (subf (broadcast S1024x1 (Scalar.ofBits .f32 0x00000000#32))
        (shapeCast S1024x1 R shapeCasts_S1024_S1024x1)) 0x00000000#32 reduces_S1024x1_S1 (.inl rfl) rfl) shapeCasts_S1_S1x1)
      (broadcast S1x1 (Scalar.ofBits .f32 0x44800000#32)) i
      = Host.divf (F := Ideal) (Host.reduceAdd (F := Ideal) (Host.negf (F := Ideal) R) (Cert.ReferenceIdeal.Read.val_main_cst_11 (F := Ideal))
          Cert.ReferenceIdeal.Gen.reducesTo_S1024_S_d0 Cert.ReferenceIdeal.Gen.h_S_) (Cert.ReferenceIdeal.Read.val_main_cst_12 (F := Ideal)) ix0 := by
  rw [subf_zero_eq_hostNegf, divf_apply, hostDivf_apply]
  refine congrArg₂ Ideal.div ?_ rfl
  have hi0 : (i 0).val = 0 := by have := (i 0).isLt; have e : (i 0).val < 1 := this; omega
  have hi1 : (i 1).val = 0 := by have := (i 1).isLt; have e : (i 1).val < 1 := this; omega
  rw [shapeCast_apply _ shapeCasts_S1_S1x1 i (ix1 (0 : Fin 1)) (by
      rw [Shape.rowMajor_val_one, Shape.rowMajor_val_two]; show 0 = (i 0).val * 1 + (i 1).val; omega),
    Ideal.multiReduction_add_total _ 0x00000000#32 reduces_S1024x1_S1 (fun b => by match b with | ⟨0, _⟩ => rfl) (.inl rfl) rfl,
    hostReduceAdd_apply, Ideal.hostReduceAdd_total Cert.ReferenceIdeal.Gen.reducesTo_S1024_S_d0 (fun b => b.elim0),
    Cert.ReferenceIdeal.Read.val_main_cst_11_apply, Ideal.ofBits_def, Ideal.ofBits_zero_f32, zero_add]
  exact Equiv.sum_comp (Shape.reshapeEquiv shapeCasts_S1024_S1024x1) (fun j => Host.negf (F := Ideal) R j)

/-- The kernel's shifted logits: the logits less their row maximum as a column broadcast over the row. -/
private def kShifted (lg : FVec Ideal S1024x104 .f32) : FVec Ideal S1024x104 .f32 :=
  subf lg (broadcastTo S1024x104 (shapeCast S1024x1 (multiReduction .maximumf [1] S1024 lg 0xFF800000#32 reduces_S1024x104_S1024 (.inl rfl) rfl)
    shapeCasts_S1024_S1024x1) broadcasts_S1024x1_S1024x104)

/-- The kernel's log-softmax: the shifted logits less the logarithm of the row sums of their exponentials. -/
private def kLogSoftmax (lg : FVec Ideal S1024x104 .f32) : FVec Ideal S1024x104 .f32 :=
  subf (kShifted lg) (broadcastTo S1024x104 (log (shapeCast S1024x1 (multiReduction .add [1] S1024 (exp (kShifted lg)) 0x00000000#32
    reduces_S1024x104_S1024 (.inl rfl) rfl) shapeCasts_S1024_S1024x1)) broadcasts_S1024x1_S1024x104)

/-- The kernel's row sums of the one-hot factor times the log-softmax. -/
private def kRowLoss (lg : FVec Ideal S1024x104 .f32) (v21 : Vec Ideal S1024x1 .i32) : FVec Ideal S1024 .f32 :=
  multiReduction .add [1] S1024 (mulf (sitofp .f32 (extui 32 (cmpi .eq (broadcastTo S1024x104 (shapeCast S1024x1 v21 shapeCasts_S1024x1_S1024x1)
      broadcasts_S1024x1_S1024x104) (iota .tc S1024x104 32 [1] iota_S1024x104_d1_w32)) natLt_1_32)) (kLogSoftmax lg))
    0x00000000#32 reduces_S1024x104_S1024 (.inl rfl) rfl

/-- The loss payload over a logits array. -/
private def kLoss (lg : FVec Ideal S1024x104 .f32) (v21 : Vec Ideal S1024x1 .i32) : FVec Ideal S1x1 .f32 :=
  divf (shapeCast S1x1 (multiReduction .add [0] S1 (subf (broadcast S1024x1 (Scalar.ofBits .f32 0x00000000#32))
      (shapeCast S1024x1 (kRowLoss lg v21) shapeCasts_S1024_S1024x1)) 0x00000000#32 reduces_S1024x1_S1 (.inl rfl) rfl) shapeCasts_S1_S1x1)
    (broadcast S1x1 (Scalar.ofBits .f32 0x44800000#32))

/-- The loss payload is that function of the logits payload. -/
private theorem pay2_eq_kLoss (v0 : Vec Ideal S1024x64 .f32) (v3 : Vec Ideal S64x104 .f32) (v6 : Vec Ideal S1x104 .f32) (v21 : Vec Ideal S1024x1 .i32) :
    k4_pay2 (F := Ideal) v0 v3 v6 v21 = kLoss (k4_pay1 (F := Ideal) v0 v3 v6) v21 := rfl

/-- The shifted logits agree. -/
private theorem shifted_eq (lg : FVec Ideal S1024x104 .f32) : kShifted lg = Cert.ReferenceIdeal.Stage.shifted (F := Ideal) lg := by
  unfold kShifted Cert.ReferenceIdeal.Stage.shifted
  rw [rowMax_eq lg, shapeCast_col_eq_broadcastInDim _ _ Cert.ReferenceIdeal.Gen.bcast_S1024_S1024x1_0,
    broadcastTo_col_eq_broadcastInDim _ _ Cert.ReferenceIdeal.Gen.bcast_S1024x1_S1024x104_0_1]

/-- The log-softmax agrees. -/
private theorem logSoftmax_eq (lg : FVec Ideal S1024x104 .f32) : kLogSoftmax lg = Cert.ReferenceIdeal.Stage.logSoftmax (F := Ideal) lg := by
  unfold kLogSoftmax Cert.ReferenceIdeal.Stage.logSoftmax
  rw [shifted_eq lg,
    multiReduction_add_eq_hostReduceAdd _ 0x00000000#32 reduces_S1024x104_S1024 (.inl rfl) rfl
      (Cert.ReferenceIdeal.Read.val_main_call4_cst_1 (F := Ideal)) Cert.ReferenceIdeal.Gen.reducesTo_S1024x104_S1024_d1 Cert.ReferenceIdeal.Gen.h_S_
      Ideal.ofBits_zero_f32,
    shapeCast_col_eq_broadcastInDim _ _ Cert.ReferenceIdeal.Gen.bcast_S1024_S1024x1_0,
    broadcastTo_col_eq_broadcastInDim _ _ Cert.ReferenceIdeal.Gen.bcast_S1024x1_S1024x104_0_1]
  rfl

/-- The row sums of the one-hot factor times the log-softmax agree. -/
private theorem rowLoss_eq (lg : FVec Ideal S1024x104 .f32) (v21 : Vec Ideal S1024x1 .i32)
    (x6 : (⟨Cert.ReferenceIdeal.S1024, .i32⟩ : BufTy).Contents (Elt Ideal)) (h21 : ∀ g : Fin 1024, v21 (ix2 g (0 : Fin 1)) = x6 (ix1 g)) :
    kRowLoss lg v21 = Host.reduceAdd (F := Ideal) (mulf (Cert.ReferenceIdeal.Read.val_main_v55 (F := Ideal) x6) (Cert.ReferenceIdeal.Stage.logSoftmax (F := Ideal) lg))
      (Cert.ReferenceIdeal.Read.val_main_cst_8 (F := Ideal)) Cert.ReferenceIdeal.Gen.reducesTo_S1024x104_S1024_d1 Cert.ReferenceIdeal.Gen.h_S_ := by
  unfold kRowLoss
  rw [oneHot_eq v21 x6 h21, logSoftmax_eq lg]
  exact multiReduction_add_eq_hostReduceAdd _ 0x00000000#32 reduces_S1024x104_S1024 (.inl rfl) rfl
      (Cert.ReferenceIdeal.Read.val_main_cst_8 (F := Ideal)) Cert.ReferenceIdeal.Gen.reducesTo_S1024x104_S1024_d1 Cert.ReferenceIdeal.Gen.h_S_
      Ideal.ofBits_zero_f32

/-- The loss payload, at its one entry, is the reference's mean cross-entropy of the logits payload against the labels. -/
theorem pay2_eq (v0 : Vec Ideal S1024x64 .f32) (v3 : Vec Ideal S64x104 .f32) (v6 : Vec Ideal S1x104 .f32) (v21 : Vec Ideal S1024x1 .i32)
    (x6 : (⟨Cert.ReferenceIdeal.S1024, .i32⟩ : BufTy).Contents (Elt Ideal))
    (h21 : ∀ g : Fin 1024, v21 (ix2 g (0 : Fin 1)) = x6 (ix1 g)) (i : S1x1.Idx) :
    k4_pay2 (F := Ideal) v0 v3 v6 v21 i
      = Cert.ReferenceIdeal.Stage.ceOfLogits (F := Ideal) (k4_pay1 (F := Ideal) v0 v3 v6) x6 ix0 := by
  rw [pay2_eq_kLoss]
  generalize k4_pay1 (F := Ideal) v0 v3 v6 = lg
  unfold kLoss Cert.ReferenceIdeal.Stage.ceOfLogits
  rw [rowLoss_eq lg v21 x6 h21]
  exact mean_eq _ i

end Cert.KernelIdeal.CeMath

end
-- ==== Proof.Region4.lean ====
/-
  Region 4, one grid point: the logits pooled @ Wd + bd, stored whole, and from them the mean softmax cross-entropy against
  the labels, stored as a 1 x 1 array. After the region the two output arrays are the reference's logits stage and its
  cross-entropy (Stage.ceOfLogits) of the arrays the region read.
-/
import proofs.«422714_j21131239097136_1_alg».proof.Proof.KernelIdealFrame
import proofs.«422714_j21131239097136_1_alg».proof.Proof.RefRun
import proofs.«422714_j21131239097136_1_alg».proof.Proof.Stages
import proofs.«422714_j21131239097136_1_alg».proof.Proof.CeMath

noncomputable section

open Idealize.ShloMosaic Idealize.ShloMosaic.TcCoe Idealize.SL.Sem
open Idealize.ShloMosaic.Pipeline (Dat)
open Cert.KernelIdeal Cert.KernelIdeal.Gen

open Idealize.ShloMosaic.ValueIdx

namespace Cert.KernelIdeal.Region4

/-! ## The logits payload is the reference's logits stage of the same arrays -/

/-- The bias row laid along every row of the logits, read at an entry, is the bias vector at the entry's column. -/
theorem bias_apply (b : Vec Ideal S1x104 .f32) (g : Fin 1024) (j : Fin 104) :
    broadcastTo S1024x104 (shapeCast S1x104 b shapeCasts_S1x104_S1x104) broadcasts_S1x104_S1024x104 (ix2 g j) = b (ix2 (0 : Fin 1) j) := by
  rw [shapeCast_self]
  refine broadcastTo_apply b broadcasts_S1x104_S1024x104 (ix2 g j) (ix2 (0 : Fin 1) j) ?_
  intro a
  match a with
  | ⟨0, _⟩ => rfl
  | ⟨1, _⟩ => show j.val = if (104 : Nat) = 1 then 0 else j.val; rw [if_neg (by decide)]

/-- The reference's bias stage at an entry is the bias vector at the entry's column. -/
theorem ref_bias_apply (x11 : (⟨Cert.ReferenceIdeal.S104, .f32⟩ : BufTy).Contents (Elt Ideal)) (g : Fin 1024) (j : Fin 104) :
    Cert.ReferenceIdeal.Read.val_main_v53 (F := Ideal) x11 (ix2 g j) = x11 (ix1 j) := by
  rw [Cert.ReferenceIdeal.Read.val_main_v53_apply, Cert.ReferenceIdeal.Read.val_main_v52_apply]
  refine congrArg x11 (funext fun a => ?_)
  match a with
  | ⟨0, _⟩ => rfl

/-- The two programs' dimension numbers of the 1024 x 64 by 64 x 104 product are the same record. -/
theorem dot_eq : Cert.KernelIdeal.dot_S1024x64_S64x104_S1024x104_1_0_0_1_n_n = Cert.ReferenceIdeal.dot_S1024x64_S64x104_S1024x104_1_0_0_1_n_n := rfl

/-- The logits payload: the product into a zero accumulator is the plain product, the changes of float format are the
    identity, and the bias row laid along the rows is the reference's broadcast of the bias vector. -/
theorem logits_payload (p : Vec Ideal S1024x64 .f32) (wd : Vec Ideal S64x104 .f32) (b : Vec Ideal S1x104 .f32)
    (x11 : (⟨Cert.ReferenceIdeal.S104, .f32⟩ : BufTy).Contents (Elt Ideal))
    (hb : ∀ j : Fin 104, b (ix2 (0 : Fin 1) j) = x11 (ix1 j)) :
    k4_pay1 (F := Ideal) p wd b
      = addf (F := Ideal) (Host.dotGeneral (F := Ideal) (φ₁ := .f32) (φ₂ := .f32) Cert.ReferenceIdeal.dot_S1024x64_S64x104_S1024x104_1_0_0_1_n_n none p wd)
          (Cert.ReferenceIdeal.Read.val_main_v53 (F := Ideal) x11) := by
  funext i
  obtain ⟨g, j, rfl⟩ : ∃ (g : Fin 1024) (j : Fin 104), i = ix2 g j := ⟨i 0, i 1, eq_ix2 i⟩
  unfold k4_pay1
  refine congrArg₂ (fun (a b : EReal) => a + b) ?_ ?_
  · refine (Ideal.matmul_constant_zero_apply _ none _ _ (ix2 g j)).trans ?_
    refine Eq.trans ?_ (Ideal.dotGeneral_apply Cert.ReferenceIdeal.dot_S1024x64_S64x104_S1024x104_1_0_0_1_n_n none _ p wd (ix2 g j)).symm
    rw [shapeCast_self p shapeCasts_S1024x64_S1024x64]
    rfl
  · exact (bias_apply b g j).trans ((hb j).trans (ref_bias_apply x11 g j).symm)

/-! ## From the one point's blocks to the arrays -/

/-- The zero offsets of a whole-block access, as the constant function. -/
theorem zero_offsets : (![0, 0] : Fin 2 → Nat) = fun _ => 0 := funext fun a => by fin_cases a <;> rfl

/-- The windows' index maps over the one-point grid: every window's block index is 0 on both axes. -/
theorem block_index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

section Blocks
variable (V : (c : Dev nD) → (b : Ref sig .tc) → Buf (Elt Ideal) ((c : Thread nD τ).loc b)) (c : Dev nD) (t : Fin cfg4.N)

/-- The pooled block at the one point is the pooled array. -/
theorem pooled_block : (iblk4 (F := Ideal) V c 0 t : Vec Ideal S1024x64 .f32) = (V c main_v44 : Vec Ideal S1024x64 .f32) := by
  obtain ⟨e0, e1, -⟩ := block_index_zero t
  funext j
  show V c main_v44 (((cfg4.win 0).blk t).view.emb j) = V c main_v44 j
  refine congrArg (V c main_v44) (funext fun a => Fin.ext ?_)
  match a with
  | ⟨0, _⟩ => show win4_0.index t (0 : Fin 2) * 1024 + 1 * (j 0).val = (j 0).val; omega
  | ⟨1, _⟩ => show win4_0.index t (1 : Fin 2) * 64 + 1 * (j 1).val = (j 1).val; omega

/-- The weight block at the one point is the weight array. -/
theorem weight_block : (iblk4 (F := Ideal) V c 1 t : Vec Ideal S64x104 .f32) = (V c main_arg10 : Vec Ideal S64x104 .f32) := by
  obtain ⟨-, -, e0, e1, -⟩ := block_index_zero t
  funext j
  show V c main_arg10 (((cfg4.win 1).blk t).view.emb j) = V c main_arg10 j
  refine congrArg (V c main_arg10) (funext fun a => Fin.ext ?_)
  match a with
  | ⟨0, _⟩ => show win4_1.index t (0 : Fin 2) * 64 + 1 * (j 0).val = (j 0).val; omega
  | ⟨1, _⟩ => show win4_1.index t (1 : Fin 2) * 104 + 1 * (j 1).val = (j 1).val; omega

/-- The bias block at the one point is the bias row array. -/
theorem bias_block : (iblk4 (F := Ideal) V c 2 t : Vec Ideal S1x104 .f32) = (V c main_v46 : Vec Ideal S1x104 .f32) := by
  obtain ⟨-, -, -, -, e0, e1, -⟩ := block_index_zero t
  funext j
  show V c main_v46 (((cfg4.win 2).blk t).view.emb j) = V c main_v46 j
  refine congrArg (V c main_v46) (funext fun a => Fin.ext ?_)
  match a with
  | ⟨0, _⟩ => show win4_2.index t (0 : Fin 2) * 1 + 1 * (j 0).val = (j 0).val; omega
  | ⟨1, _⟩ => show win4_2.index t (1 : Fin 2) * 104 + 1 * (j 1).val = (j 1).val; omega

/-- The label block at the one point is the label column array. -/
theorem label_block : (iblk4 (F := Ideal) V c 3 t : Vec Ideal S1024x1 .i32) = (V c main_v45 : Vec Ideal S1024x1 .i32) := by
  obtain ⟨-, -, -, -, -, -, e0, e1, -⟩ := block_index_zero t
  funext j
  show V c main_v45 (((cfg4.win 3).blk t).view.emb j) = V c main_v45 j
  refine congrArg (V c main_v45) (funext fun a => Fin.ext ?_)
  match a with
  | ⟨0, _⟩ => show win4_3.index t (0 : Fin 2) * 1024 + 1 * (j 0).val = (j 0).val; omega
  | ⟨1, _⟩ => show win4_3.index t (1 : Fin 2) * 1 + 1 * (j 1).val = (j 1).val; omega

/-- What the body leaves in the logits window over blocks that are the arrays: the logits payload of the arrays. -/
theorem out4_4_eq (x0 a0 : Vec Ideal S1024x64 .f32) (x1 a1 : Vec Ideal S64x104 .f32) (x2 a2 : Vec Ideal S1x104 .f32) (x3 : Vec Ideal S1024x1 .i32)
    (h0 : x0 = a0) (h1 : x1 = a1) (h2 : x2 = a2) : out4_4 (F := Ideal) x0 x1 x2 x3 = k4_pay1 (F := Ideal) a0 a1 a2 := by
  subst h0 h1 h2
  unfold out4_4
  rw [View.canon_unit_zero zero_offsets]
  simp only [View.ld_unit_zero (S := S1024x64) zero_offsets, View.ld_unit_zero (S := S64x104) zero_offsets, View.ld_unit_zero (S := S1x104) zero_offsets]

/-- What the body leaves in the loss window over blocks that are the arrays: the loss payload of the arrays. -/
theorem out4_5_eq (x0 a0 : Vec Ideal S1024x64 .f32) (x1 a1 : Vec Ideal S64x104 .f32) (x2 a2 : Vec Ideal S1x104 .f32) (x3 a3 : Vec Ideal S1024x1 .i32)
    (h0 : x0 = a0) (h1 : x1 = a1) (h2 : x2 = a2) (h3 : x3 = a3) : out4_5 (F := Ideal) x0 x1 x2 x3 = k4_pay2 (F := Ideal) a0 a1 a2 a3 := by
  subst h0 h1 h2 h3
  unfold out4_5
  rw [View.canon_unit_zero zero_offsets]
  simp only [View.ld_unit_zero (S := S1024x64) zero_offsets, View.ld_unit_zero (S := S64x104) zero_offsets, View.ld_unit_zero (S := S1x104) zero_offsets, View.ld_unit_zero (S := S1024x1) zero_offsets]

/-- After the body at the one point the logits window's buffer holds the logits payload of the arrays the region read. -/
theorem after_logits : ((dat4 (F := Ideal) V c).after 4 t : Vec Ideal S1024x104 .f32) = k4_pay1 (F := Ideal) (V c main_v44) (V c main_arg10) (V c main_v46) := by
  rw [after4_4]
  exact out4_4_eq (iblk4 (F := Ideal) V c 0 t) (V c main_v44) (iblk4 (F := Ideal) V c 1 t) (V c main_arg10) (iblk4 (F := Ideal) V c 2 t) (V c main_v46) (iblk4 (F := Ideal) V c 3 t)
    (pooled_block V c t) (weight_block V c t) (bias_block V c t)

/-- After the body at the one point the loss window's buffer holds the loss payload of the arrays the region read. -/
theorem after_loss : ((dat4 (F := Ideal) V c).after 5 t : Vec Ideal S1x1 .f32) = k4_pay2 (F := Ideal) (V c main_v44) (V c main_arg10) (V c main_v46) (V c main_v45) := by
  rw [after4_5]
  exact out4_5_eq (iblk4 (F := Ideal) V c 0 t) (V c main_v44) (iblk4 (F := Ideal) V c 1 t) (V c main_arg10) (iblk4 (F := Ideal) V c 2 t) (V c main_v46) (iblk4 (F := Ideal) V c 3 t) (V c main_v45)
    (pooled_block V c t) (weight_block V c t) (bias_block V c t) (label_block V c t)

end Blocks

section Arrays
variable (V : (c : Dev nD) → (b : Ref sig .tc) → Buf (Elt Ideal) ((c : Thread nD τ).loc b)) (c : Dev nD)

/-- What the one point writes back to the logits array is its block of the logits payload of the arrays the region read. -/
theorem flushed_logits (t : Fin cfg4.N) :
    (dat4 (F := Ideal) V c).flushed 4 t
      = ((cfg4.win 4).blk t).view.read (Elt Ideal) (k4_pay1 (F := Ideal) (V c main_v44) (V c main_arg10) (V c main_v46)) := by
  show (cfg4.win 4).cut (grid4.coords t) ((dat4 (F := Ideal) V c).after 4 t) = _
  rw [after_logits V c t]
  obtain ⟨-, -, -, -, -, -, -, -, e0, e1, -⟩ := block_index_zero t
  funext j
  show k4_pay1 (F := Ideal) (V c main_v44) (V c main_arg10) (V c main_v46) j
    = k4_pay1 (F := Ideal) (V c main_v44) (V c main_arg10) (V c main_v46) (((cfg4.win 4).blk t).view.emb j)
  refine congrArg (k4_pay1 (F := Ideal) (V c main_v44) (V c main_arg10) (V c main_v46)) (funext fun a => Fin.ext ?_)
  match a with
  | ⟨0, _⟩ => show (j 0).val = win4_4.index t (0 : Fin 2) * 1024 + 1 * (j 0).val; omega
  | ⟨1, _⟩ => show (j 1).val = win4_4.index t (1 : Fin 2) * 104 + 1 * (j 1).val; omega

/-- What the one point writes back to the loss array is its block of the loss payload of the arrays the region read. -/
theorem flushed_loss (t : Fin cfg4.N) :
    (dat4 (F := Ideal) V c).flushed 5 t
      = ((cfg4.win 5).blk t).view.read (Elt Ideal) (k4_pay2 (F := Ideal) (V c main_v44) (V c main_arg10) (V c main_v46) (V c main_v45)) := by
  show (cfg4.win 5).cut (grid4.coords t) ((dat4 (F := Ideal) V c).after 5 t) = _
  rw [after_loss V c t]
  obtain ⟨-, -, -, -, -, -, -, -, -, -, e0, e1⟩ := block_index_zero t
  funext j
  show k4_pay2 (F := Ideal) (V c main_v44) (V c main_arg10) (V c main_v46) (V c main_v45) j
    = k4_pay2 (F := Ideal) (V c main_v44) (V c main_arg10) (V c main_v46) (V c main_v45) (((cfg4.win 5).blk t).view.emb j)
  refine congrArg (k4_pay2 (F := Ideal) (V c main_v44) (V c main_arg10) (V c main_v46) (V c main_v45)) (funext fun a => Fin.ext ?_)
  match a with
  | ⟨0, _⟩ => show (j 0).val = win4_5.index t (0 : Fin 2) * 1 + 1 * (j 0).val; omega
  | ⟨1, _⟩ => show (j 1).val = win4_5.index t (1 : Fin 2) * 1 + 1 * (j 1).val; omega

/-- An index of the logits array is in a point's block iff each coordinate is in the block's range on its axis. -/
theorem mem_logits_block (t : Fin cfg4.N) (i : S1024x104.Idx) :
    i ∈ ((cfg4.win 4).blk t).view.set ↔ ∀ a : Fin 2, win4_4.index t a * S1024x104.size a ≤ (i a).val ∧ (i a).val < win4_4.index t a * S1024x104.size a + S1024x104.size a := by
  show i ∈ ((View.whole main_v47_0).slice (win4_4.rect t)).set ↔ _
  rw [View.set_slice_whole, Rect.mem_set_unit]
  exact Iff.rfl

/-- The same for the 1 x 1 loss array. -/
theorem mem_loss_block (t : Fin cfg4.N) (i : S1x1.Idx) :
    i ∈ ((cfg4.win 5).blk t).view.set ↔ ∀ a : Fin 2, win4_5.index t a * S1x1.size a ≤ (i a).val ∧ (i a).val < win4_5.index t a * S1x1.size a + S1x1.size a := by
  show i ∈ ((View.whole main_v47_1).slice (win4_5.rect t)).set ↔ _
  rw [View.set_slice_whole, Rect.mem_set_unit]
  exact Iff.rfl

/-- The one point's block is the whole logits array. -/
theorem logits_block_covers (i : S1024x104.Idx) : ∃ t : Fin cfg4.N, (cfg4.win 4).flush t = true ∧ i ∈ ((cfg4.win 4).blk t).view.set := by
  refine ⟨t4_0, flush4_4 t4_0, ?_⟩
  obtain ⟨-, -, -, -, -, -, -, -, e0, e1, -⟩ := block_index_zero t4_0
  rw [mem_logits_block]
  intro a
  match a with
  | ⟨0, _⟩ => show win4_4.index t4_0 (0 : Fin 2) * 1024 ≤ (i 0).val ∧ (i 0).val < win4_4.index t4_0 (0 : Fin 2) * 1024 + 1024; have h : (i 0).val < 1024 := (i 0).isLt; omega
  | ⟨1, _⟩ => show win4_4.index t4_0 (1 : Fin 2) * 104 ≤ (i 1).val ∧ (i 1).val < win4_4.index t4_0 (1 : Fin 2) * 104 + 104; have h : (i 1).val < 104 := (i 1).isLt; omega

/-- The one point's block is the whole loss array. -/
theorem loss_block_covers (i : S1x1.Idx) : ∃ t : Fin cfg4.N, (cfg4.win 5).flush t = true ∧ i ∈ ((cfg4.win 5).blk t).view.set := by
  refine ⟨t4_0, flush4_5 t4_0, ?_⟩
  obtain ⟨-, -, -, -, -, -, -, -, -, -, e0, e1⟩ := block_index_zero t4_0
  rw [mem_loss_block]
  intro a
  match a with
  | ⟨0, _⟩ => show win4_5.index t4_0 (0 : Fin 2) * 1 ≤ (i 0).val ∧ (i 0).val < win4_5.index t4_0 (0 : Fin 2) * 1 + 1; have h : (i 0).val < 1 := (i 0).isLt; omega
  | ⟨1, _⟩ => show win4_5.index t4_0 (1 : Fin 2) * 1 ≤ (i 1).val ∧ (i 1).val < win4_5.index t4_0 (1 : Fin 2) * 1 + 1; have h : (i 1).val < 1 := (i 1).isLt; omega

/-- THE LOGITS ARRAY after the region: the logits payload of the arrays the region read. -/
theorem logits_array : (dat4 (F := Ideal) V c).arrAt 4 cfg4.N = k4_pay1 (F := Ideal) (V c main_v44) (V c main_arg10) (V c main_v46) :=
  (dat4 (F := Ideal) V c).arrAt_eq_of_cover 4 (k4_pay1 (F := Ideal) (V c main_v44) (V c main_arg10) (V c main_v46))
    (fun t _ => flushed_logits V c t) logits_block_covers

/-- THE LOSS ARRAY after the region: the loss payload of the arrays the region read. -/
theorem loss_array : (dat4 (F := Ideal) V c).arrAt 5 cfg4.N = k4_pay2 (F := Ideal) (V c main_v44) (V c main_arg10) (V c main_v46) (V c main_v45) :=
  (dat4 (F := Ideal) V c).arrAt_eq_of_cover 5 (k4_pay2 (F := Ideal) (V c main_v44) (V c main_arg10) (V c main_v46) (V c main_v45))
    (fun t _ => flushed_loss V c t) loss_block_covers

end Arrays

/-- After region 4 its first output array is `pooled @ Wd + bd`, in the reference's own operations; `bd` as the row of the
    1 x 104 array the region read. -/
theorem logits (V : (c : Dev nD) → (b : Ref sig .tc) → Buf (Elt Ideal) ((c : Thread nD τ).loc b)) (c : Dev nD) (x11 : (⟨Cert.ReferenceIdeal.S104, .f32⟩ : BufTy).Contents (Elt Ideal))
    (h46 : ∀ j : Fin 104, V c main_v46 (ix2 (0 : Fin 1) j) = x11 (ix1 j)) :
    (dat4 (F := Ideal) V c).arrAt 4 cfg4.N
      = addf (F := Ideal) (Host.dotGeneral (F := Ideal) (φ₁ := .f32) (φ₂ := .f32) Cert.ReferenceIdeal.dot_S1024x64_S64x104_S1024x104_1_0_0_1_n_n none (V c main_v44) (V c main_arg10))
          (Cert.ReferenceIdeal.Read.val_main_v53 (F := Ideal) x11) := by
  exact (logits_array V c).trans (logits_payload (V c main_v44) (V c main_arg10) (V c main_v46) x11 h46)

/-- After region 4 its second output array holds, at its one entry, the reference's mean cross-entropy of those logits
    against the labels; the labels as the column of the 1024 x 1 array the region read. -/
theorem ce (V : (c : Dev nD) → (b : Ref sig .tc) → Buf (Elt Ideal) ((c : Thread nD τ).loc b)) (c : Dev nD) (x11 : (⟨Cert.ReferenceIdeal.S104, .f32⟩ : BufTy).Contents (Elt Ideal))
    (x6 : (⟨Cert.ReferenceIdeal.S1024, .i32⟩ : BufTy).Contents (Elt Ideal))
    (h46 : ∀ j : Fin 104, V c main_v46 (ix2 (0 : Fin 1) j) = x11 (ix1 j))
    (h45 : ∀ g : Fin 1024, V c main_v45 (ix2 g (0 : Fin 1)) = x6 (ix1 g)) (i : S1x1.Idx) :
    (dat4 (F := Ideal) V c).arrAt 5 cfg4.N i
      = Cert.ReferenceIdeal.Stage.ceOfLogits (F := Ideal)
          (addf (F := Ideal) (Host.dotGeneral (F := Ideal) (φ₁ := .f32) (φ₂ := .f32) Cert.ReferenceIdeal.dot_S1024x64_S64x104_S1024x104_1_0_0_1_n_n none (V c main_v44) (V c main_arg10))
            (Cert.ReferenceIdeal.Read.val_main_v53 (F := Ideal) x11)) x6 ix0 := by
  exact (congrFun (loss_array V c) i).trans
    ((Cert.KernelIdeal.CeMath.pay2_eq (V c main_v44) (V c main_arg10) (V c main_v46) (V c main_v45) x6 h45 i).trans
      (congrArg (fun lg => Cert.ReferenceIdeal.Stage.ceOfLogits (F := Ideal) lg x6 ix0)
        (logits_payload (V c main_v44) (V c main_arg10) (V c main_v46) x11 h46)))

end Cert.KernelIdeal.Region4

end
-- ==== Proof.LevelsC.lean ====
/-
  The kernel's program to its end: the last region's two outputs are the reference's logits stage and its mean
  cross-entropy of those logits (Region4), and the last host stretch adds the weight-decay term exactly as the reference
  does. So the kernel's two results are the reference's two result stages of the launch arguments.
-/
import proofs.«422714_j21131239097136_1_alg».proof.Proof.KernelIdealFrame
import proofs.«422714_j21131239097136_1_alg».proof.Proof.Kept
import proofs.«422714_j21131239097136_1_alg».proof.Proof.RefRun
import proofs.«422714_j21131239097136_1_alg».proof.Proof.Stages
import proofs.«422714_j21131239097136_1_alg».proof.Proof.LevelsB
import proofs.«422714_j21131239097136_1_alg».proof.Proof.Region4

set_option quotPrecheck false
set_option maxRecDepth 200000
set_option maxHeartbeats 2000000

noncomputable section

namespace Cert.KernelIdeal.Levels

open Idealize.ShloMosaic Idealize.ShloMosaic.TcCoe Idealize.SL.Sem Idealize.ShloMosaic.ValueIdx
open Cert.KernelIdeal Cert.KernelIdeal.Gen
open Cert.ReferenceIdeal.Read (val_main_v0 val_main_v13 val_main_v15 val_main_v28 val_main_v30 val_main_v43 val_main_v50 val_main_v54 val_main_v64 val_main_v65)

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-- After the last region: the logits. -/
theorem W9_v47_0 : W9 m ρ c (Proc.devRef .tc main_v47_0) = val_main_v54 (F := Ideal) a0 a1 a2 a3 a4 a5 a7 a8 a9 a10 a11 := by
  have h := (W9_arr m ρ c 4).trans (Region4.logits (V8 m ρ) c a11 (W8_v46 m ρ c))
  dsimp only [V8] at h
  rw [W8_v44 m ρ c, Kept.W8_arg10 m ρ c] at h
  exact h

/-- After the last region: the mean cross-entropy, at the one entry of its 1 x 1 array. -/
theorem W9_v47_1 (i : S1x1.Idx) : W9 m ρ c (Proc.devRef .tc main_v47_1) i = val_main_v64 (F := Ideal) a0 a1 a2 a3 a4 a5 a6 a7 a8 a9 a10 a11 ix0 := by
  have h := (congrFun (W9_arr m ρ c 5) i).trans (Region4.ce (V8 m ρ) c a11 a6 (W8_v46 m ρ c) (W8_v45 m ρ c) i)
  dsimp only [V8] at h
  rw [W8_v44 m ρ c, Kept.W8_arg10 m ρ c] at h
  rw [Cert.ReferenceIdeal.Stage.val_main_v64_eq]
  exact h

/-- The last host stretch does not write the logits. -/
theorem W10_v47_0 : W10 m ρ c (Proc.devRef .tc main_v47_0) = val_main_v54 (F := Ideal) a0 a1 a2 a3 a4 a5 a7 a8 a9 a10 a11 :=
  (by host_keeps : W10 m ρ c (Proc.devRef .tc main_v47_0) = W9 m ρ c (Proc.devRef .tc main_v47_0)).trans (W9_v47_0 m ρ c)

/-- The 1 x 1 cross-entropy array cast to a scalar is the reference's cross-entropy stage. -/
theorem ce_scalar : (fun i => shapeCast S_ (W9 m ρ c (Proc.devRef .tc main_v47_1)) shapeCasts_S1x1_S_ i)
    = val_main_v64 (F := Ideal) a0 a1 a2 a3 a4 a5 a6 a7 a8 a9 a10 a11 := by
  funext i
  have hi : i = ix0 := funext fun a => a.elim0
  rw [shapeCast_apply _ _ i (ix2 (0 : Fin 1) (0 : Fin 1))
    ((by decide : ∀ (p : Fin (Shape.numel S1x1)) (q : Fin (Shape.numel S_)), p.val = q.val) _ _), W9_v47_1 m ρ c, hi]

/-- The loss: the weight-decay term plus the mean cross-entropy, as the reference adds them. -/
theorem W10_v52 : W10 m ρ c (Proc.devRef .tc main_v52) = val_main_v65 (F := Ideal) a0 a1 a2 a3 a4 a5 a6 a7 a8 a9 a10 a11 := by
  dsimp only [W10, hostOps5]
  after_results
  rw [Kept.W9_arg7 m ρ c]
  calc _ = addf (F := Ideal) (Cert.ReferenceIdeal.Read.val_main_v62 (F := Ideal) a7)
              (fun i => shapeCast S_ (W9 m ρ c (Proc.devRef .tc main_v47_1)) shapeCasts_S1x1_S_ i) := rfl
    _ = addf (F := Ideal) (Cert.ReferenceIdeal.Read.val_main_v62 (F := Ideal) a7)
              (val_main_v64 (F := Ideal) a0 a1 a2 a3 a4 a5 a6 a7 a8 a9 a10 a11) := by rw [ce_scalar m ρ c]
    _ = _ := rfl

end Cert.KernelIdeal.Levels

end
-- ==== Proof.lean ====
/-
  The certificate: a three-layer graph-convolution network with weighted segment pooling, a dense layer and a mean softmax
  cross-entropy loss plus a weight-decay term, computed by five kernels among host operations, against its plain reference.

  At the extended reals the two programs are the same function of the arguments, stage by stage. Each dense kernel stores,
  row block by row block, the product of its (rectified) input with its weight matrix: the reference's `dot_general`. The
  sparse message passing between them is host code that both programs share operation for operation. The pooling kernel adds,
  over 100 grid points, the product of a transposed one-hot matrix of segment ids with the weighted rectified features: entry
  (g, f) is the sum over all rows n with segment id g of relu(h n f) · w n, which is what the reference's scatter-add into
  1024 zero rows computes, rows with an id outside 0 … 1023 contributing to neither. The last kernel stores pooled @ Wd + bd
  and the mean cross-entropy of those logits, by the same formula as `log_softmax` and `one_hot` on the host; the host then
  adds the same weight-decay term on both sides. No step uses more than commutativity and associativity of the sum,
  `0 · x = 0` and `1 · x = x`, so the precondition (finite inputs) is never opened.

  The three frames are the generated ones (the reference's is its run with the results dropped); the ideal pass rewrote
  nothing, so `preserves` is trivial.
-/
import proofs.«422714_j21131239097136_1_alg».proof.Defs
import proofs.«422714_j21131239097136_1_alg».proof.Proof.Gen.Kernel
import proofs.«422714_j21131239097136_1_alg».proof.Proof.Gen.KernelIdeal
import proofs.«422714_j21131239097136_1_alg».proof.Proof.Gen.ReferenceIdeal
import proofs.«422714_j21131239097136_1_alg».proof.Proof.Gen.Pre_finite_inputs
import proofs.«422714_j21131239097136_1_alg».proof.Proof.KernelFrame
import proofs.«422714_j21131239097136_1_alg».proof.Proof.KernelIdealFrame
import proofs.«422714_j21131239097136_1_alg».proof.Proof.KernelIdealRun
import proofs.«422714_j21131239097136_1_alg».proof.Proof.RefRun
import proofs.«422714_j21131239097136_1_alg».proof.Proof.LevelsC
import Idealize.ShloMosaic.Adequacy
import Idealize.ShloMosaic.Init

set_option maxRecDepth 200000
set_option maxHeartbeats 2000000

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the logits and the loss at the reference's two result stages of the arguments: the kernel's
    program by its boundaries (Levels), the reference by its run; the arguments agree. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Levels.W10_v47_0 m ρ c), (h c).2.1.trans (Cert.KernelIdeal.Levels.W10_v52 m ρ c), (h c).2.2⟩)
      (Cert.KernelIdeal.Gen.run_values (F := Ideal) m ρ)
  · refine (θ_run Cert.ReferenceIdeal.defs _ _).mono (fun _ h c => ?_) (Cert.ReferenceIdeal.Value.run (F := Ideal) m' ρ')
    obtain ⟨e0, e1, e2, e3, e4, e5, e6, e7, e8, e9, e10, e11⟩ := hagree c
    refine ⟨(h c).1.trans ?_, (h c).2.1.trans ?_, (h c).2.2⟩
    · rw [Cert.ReferenceIdeal.Read.val_main_v54_eq, e0, e1, e2, e3, e4, e5, e7, e8, e9, e10, e11]
    · rw [Cert.ReferenceIdeal.Read.val_main_v65_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
